-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_arg2)) (v2 : (c : Dev Cert.KernelIdeal.nD) → Buf (Elt Ideal) ((c.tc : Thread Cert.KernelIdeal.nD Cert.KernelIdeal.τ).loc Cert.KernelIdeal.main_arg3)) (v3 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000x64 : Shape := ⟨2, ![1000000, 64]⟩
abbrev S16x64 : Shape := ⟨2, ![16, 64]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S16x64 : S_.BroadcastsInDim S16x64 (![] : Fin 0 → Fin S16x64.rank)
  reducesTo_S16x64_S_d0_1 : S16x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part4 {F : FTy → Type} [FloatOps F] (main_v63 : IVec S_ 1) (main_v65 : IVec S2x1000000 1) (main_v67 : IVec S2x1000000 1) : IVec S_ 1 :=
  let main_v68 : IVec S2x1000000 1 := andi main_v65 main_v67
  let main_c_26 : IVec S_ 1 := constantI S_ 1 1#1
  let main_v69 : IVec S_ 1 := (fun x v => Host.reduce IntOp.andi x v reducesTo_S2x1000000_S_d0_1 h_S_) main_v68 main_c_26
  let main_v70 : IVec S_ 1 := andi main_v63 main_v69
  main_v70

def fn_part3 {F : FTy → Type} [FloatOps F] (main_arg1 : IVec S2x1000000 32) (main_arg13 : FVec F S64x64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_c_24 : IVec S_ 32 := constantI S_ 32 0#32
  let main_v64 : IVec S2x1000000 32 := broadcastInDim S2x1000000 ![] bcast_S_S2x1000000 main_c_24
  let main_v65 : IVec S2x1000000 1 := cmpi .sge main_arg1 main_v64
  let main_c_25 : IVec S_ 32 := constantI S_ 32 100000#32
  let main_v66 : IVec S2x1000000 32 := broadcastInDim S2x1000000 ![] bcast_S_S2x1000000 main_c_25
  let main_v67 : IVec S2x1000000 1 := cmpi .slt main_arg1 main_v66
  fn_part4 (F := F) main_v63 main_v65 main_v67

def fn_part2 {F : FTy → Type} [FloatOps F] (main_arg1 : IVec S2x1000000 32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg13 main_arg14 main_v48 main_v49 main_v50

def fn_part1 {F : FTy → Type} [FloatOps F] (main_arg1 : IVec S2x1000000 32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_arg11 main_arg12 main_arg13 main_arg14 main_v33

def fn {F : FTy → Type} [FloatOps F] (main_arg0 : FVec F S100000x64 .f32) (main_arg1 : IVec S2x1000000 32) (main_arg2 : FVec F S1000000x64 .f32) (main_arg3 : FVec F S16x64 .f32) (main_arg4 : IVec S100000 32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg2
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_arg9 main_arg10 main_arg11 main_arg12 main_arg13 main_arg14 main_v13 main_v16
-- ==== Kernel.lean ====
abbrev S100000x64 : Shape := ⟨2, ![100000, 64]⟩
abbrev S2x1000000 : Shape := ⟨2, ![2, 1000000]⟩
abbrev S1000000x64 : Shape := ⟨2, ![1000000, 64]⟩
abbrev S16x64 : Shape := ⟨2, ![16, 64]⟩
abbrev S100000 : Shape := ⟨1, ![100000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S1x64 : Shape := ⟨2, ![1, 64]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S4000x64 : Shape := ⟨2, ![4000, 64]⟩
abbrev S5000x64 : Shape := ⟨2, ![5000, 64]⟩

abbrev nBuf : Space → Nat
  | .hbm => 86
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000x64, .f32⟩
  | .hbm, ⟨3, _⟩ => ⟨S16x64, .f32⟩
  | .hbm, ⟨4, _⟩ => ⟨S100000, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x1000000, .i32⟩
  | .hbm, ⟨16, _⟩ => ⟨S1000000, .i32⟩
  | .hbm, ⟨17, _⟩ => ⟨S1x1000000, .i32⟩
  | .hbm, ⟨18, _⟩ => ⟨S1000000, .i32⟩
  | .hbm, ⟨19, _⟩ => ⟨S64x64, .f32⟩
  | .hbm, ⟨20, _⟩ => ⟨S64x64, .bf16⟩
  | .hbm, ⟨21, _⟩ => ⟨S64x64, .f32⟩
  | .hbm, ⟨22, _⟩ => ⟨S64x64, .bf16⟩
  | .hbm, ⟨23, _⟩ => ⟨S64x64, .f32⟩
  | .hbm, ⟨24, _⟩ => ⟨S64x64, .bf16⟩
  | .hbm, ⟨25, _⟩ => ⟨S64x64, .f32⟩
  | .hbm, ⟨26, _⟩ => ⟨S64x64, .bf16⟩
  | .hbm, ⟨27, _⟩ => ⟨S64x64, .f32⟩
  | .hbm, ⟨28, _⟩ => ⟨S64x64, .bf16⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1, .i32⟩
  | .hbm, ⟨43, _⟩ => ⟨S_, .i32⟩
  | .hbm, ⟨44, _⟩ => ⟨S1000000x1, .i32⟩
  | .hbm, ⟨45, _⟩ => ⟨S1000000x1, .i1⟩
  | .hbm, ⟨46, _⟩ => ⟨S1x1, .i32⟩
  | .hbm, ⟨47, _⟩ => ⟨S1000000x1, .i32⟩
  | .hbm, ⟨48, _⟩ => ⟨S1000000x1, .i1⟩
  | .hbm, ⟨49, _⟩ => ⟨S1000000x1, .i1⟩
  | .hbm, ⟨50, _⟩ => ⟨S_, .i1⟩
  | .hbm, ⟨51, _⟩ => ⟨S1000000, .i1⟩
  | .hbm, ⟨52, _⟩ => ⟨S1000000x64, .f32⟩
  | .hbm, ⟨53, _⟩ => ⟨S1000000x64, .i1⟩
  | .hbm, ⟨54, _⟩ => ⟨S_, .f32⟩
  | .hbm, ⟨55, _⟩ => ⟨S1000000x64, .f32⟩
  | .hbm, ⟨56, _⟩ => ⟨S1000000x64, .f32⟩
  | .hbm, ⟨57, _⟩ => ⟨S_, .i32⟩
  | .hbm, ⟨58, _⟩ => ⟨S1000000, .i32⟩
  | .hbm, ⟨59, _⟩ => ⟨S1000000, .i1⟩
  | .hbm, ⟨60, _⟩ => ⟨S_, .i32⟩
  | .hbm, ⟨61, _⟩ => ⟨S1000000, .i32⟩
  | .hbm, ⟨62, _⟩ => ⟨S1000000, .i32⟩
  | .hbm, ⟨63, _⟩ => ⟨S1000000, .i32⟩
  | .hbm, ⟨64, _⟩ => ⟨S1000000x1, .i32⟩
  | .hbm, ⟨65, _⟩ => ⟨S1, .i32⟩
  | .hbm, ⟨66, _⟩ => ⟨S_, .i32⟩
  | .hbm, ⟨67, _⟩ => ⟨S1000000x1, .i32⟩
  | .hbm, ⟨68, _⟩ => ⟨S1000000x1, .i1⟩
  | .hbm, ⟨69, _⟩ => ⟨S1x1, .i32⟩
  | .hbm, ⟨70, _⟩ => ⟨S1000000x1, .i32⟩
  | .hbm, ⟨71, _⟩ => ⟨S1000000x1, .i1⟩
  | .hbm, ⟨72, _⟩ => ⟨S1000000x1, .i1⟩
  | .hbm, ⟨73, _⟩ => ⟨S_, .i1⟩
  | .hbm, ⟨74, _⟩ => ⟨S1000000, .i1⟩
  | .hbm, ⟨75, _⟩ => ⟨S1000000x64, .f32⟩
  | .hbm, ⟨76, _⟩ => ⟨S1000000x64, .i1⟩
  | .hbm, ⟨77, _⟩ => ⟨S_, .f32⟩
  | .hbm, ⟨78, _⟩ => ⟨S1000000x64, .f32⟩
  | .hbm, ⟨79, _⟩ => ⟨S1000000x64, .f32⟩
  | .hbm, ⟨80, _⟩ => ⟨S1000000x64, .f32⟩
  | .hbm, ⟨81, _⟩ => ⟨S_, .f32⟩
  | .hbm, ⟨82, _⟩ => ⟨S100000x64, .f32⟩
  | .hbm, ⟨83, _⟩ => ⟨S1000000x1, .i32⟩
  | .hbm, ⟨84, _⟩ => ⟨S100000x64, .f32⟩
  | .hbm, ⟨85, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S64x64, .bf16⟩
  | .local _ .vmem, ⟨7, _⟩ => ⟨S64x64, .bf16⟩
  | .local _ .vmem, ⟨8, _⟩ => ⟨S64x64, .bf16⟩
  | .local _ .vmem, ⟨9, _⟩ => ⟨S64x64, .bf16⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S4000x64, .f32⟩
  | .local _ .vmem, ⟨15, _⟩ => ⟨S4000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .bf16⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v19 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v20 : Ref sig .tc := ⟨.hbm, 79, rfl⟩
abbrev main_v21 : Ref sig .tc := ⟨.hbm, 80, rfl⟩
abbrev main_cst : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  transposes_S64x64_S64x64_1_0 : S64x64.Transposes [1, 0] S64x64
  bitsLt_bf16_f32 : FTy.bits .bf16 < FTy.bits .f32
  shapeCasts_S64_S1x64 : S64.ShapeCasts S1x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  broadcasts_S1x64_S5000x64 : S1x64.Broadcasts S5000x64
  shapeCasts_S5000x64_S5000x64 : S5000x64.ShapeCasts S5000x64
  gather_S100000x64_S1000000x1_S1000000x64_1_0_n_n_0_1_164_wf : GatherDims.WF S100000x64 S1000000x1 S1000000x64 [1] [0] [] [0] [] 1 ![1, 64]
  dot_S4000x64_S64x64_S4000x64_1_0_0_1_n_n_wf : DotDims.WF S4000x64 S64x64 S4000x64 [1] [0] [0] [1] [] []
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1000000x64.size a
  hwx0_1 : ∀ i : grid0.Coords, EltTy.bits .f32 = 32 ∨ (Rect.block (s := S1000000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S1000000x64.size a
  hwx0_2 : ∀ i : grid0.Coords, EltTy.bits .f32 = 32 ∨ (Rect.block (s := S1000000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x64.size a ≤ S1000000x64.size a
  hwx0_11 : ∀ i : grid0.Coords, EltTy.bits .f32 = 32 ∨ (Rect.block (s := S1000000x64) S4000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v19) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S4000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000x64 : Shape := ⟨2, ![1000000, 64]⟩
abbrev S16x64 : Shape := ⟨2, ![16, 64]⟩
abbrev S100000 : Shape := ⟨1, ![100000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S1x64 : Shape := ⟨2, ![1, 64]⟩
abbrev S_ : Shape := ⟨0, ![]⟩
abbrev S1000000x1 : Shape := ⟨2, ![1000000, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000x64, .f32⟩
  | .hbm, ⟨3, _⟩ => ⟨S16x64, .f32⟩
  | .hbm, ⟨4, _⟩ => ⟨S100000, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x1000000, .i32⟩
  | .hbm, ⟨16, _⟩ => ⟨S1000000, .i32⟩
  | .hbm, ⟨17, _⟩ => ⟨S1x1000000, .i32⟩
  | .hbm, ⟨18, _⟩ => ⟨S1000000, .i32⟩
  | .hbm, ⟨19, _⟩ => ⟨S64x64, .f32⟩
  | .hbm, ⟨20, _⟩ => ⟨S100000x64, .f32⟩
  | .hbm, ⟨21, _⟩ => ⟨S1x64, .f32⟩
  | .hbm, ⟨22, _⟩ => ⟨S100000x64, .f32⟩
  | .hbm, ⟨23, _⟩ => ⟨S100000x64, .f32⟩
  | .hbm, ⟨24, _⟩ => ⟨S64x64, .f32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S64x64, .f32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S64x64, .f32⟩
  | .hbm, ⟨35, _⟩ => ⟨S1000000x64, .f32⟩
  | .hbm, ⟨36, _⟩ => ⟨S1x64, .f32⟩
  | .hbm, ⟨37, _⟩ => ⟨S1000000x64, .f32⟩
  | .hbm, ⟨38, _⟩ => ⟨S1000000x64, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x64, .f32⟩
  | .hbm, ⟨48, _⟩ => ⟨S1000000x64, .f32⟩
  | .hbm, ⟨49, _⟩ => ⟨S_, .i32⟩
  | .hbm, ⟨50, _⟩ => ⟨S1000000, .i32⟩
  | .hbm, ⟨51, _⟩ => ⟨S1000000, .i1⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S1000000, .i32⟩
  | .hbm, ⟨56, _⟩ => ⟨S1000000x1, .i32⟩
  | .hbm, ⟨57, _⟩ => ⟨S1000000x64, .f32⟩
  | .hbm, ⟨58, _⟩ => ⟨S1000000x64, .f32⟩
  | .hbm, ⟨59, _⟩ => ⟨S_, .i32⟩
  | .hbm, ⟨60, _⟩ => ⟨S1000000, .i32⟩
  | .hbm, ⟨61, _⟩ => ⟨S1000000, .i1⟩
  | .hbm, ⟨62, _⟩ => ⟨S_, .i32⟩
  | .hbm, ⟨63, _⟩ => ⟨S1000000, .i32⟩
  | .hbm, ⟨64, _⟩ => ⟨S1000000, .i32⟩
  | .hbm, ⟨65, _⟩ => ⟨S1000000, .i32⟩
  | .hbm, ⟨66, _⟩ => ⟨S1000000x1, .i32⟩
  | .hbm, ⟨67, _⟩ => ⟨S1000000x64, .f32⟩
  | .hbm, ⟨68, _⟩ => ⟨S1000000x64, .f32⟩
  | .hbm, ⟨69, _⟩ => ⟨S1000000x64, .f32⟩
  | .hbm, ⟨70, _⟩ => ⟨S1000000x64, .f32⟩
  | .hbm, ⟨71, _⟩ => ⟨S1000000x64, .f32⟩
  | .hbm, ⟨72, _⟩ => ⟨S_, .f32⟩
  | .hbm, ⟨73, _⟩ => ⟨S1000000x64, .f32⟩
  | .hbm, ⟨74, _⟩ => ⟨S1000000x64, .f32⟩
  | .hbm, ⟨75, _⟩ => ⟨S_, .f32⟩
  | .hbm, ⟨76, _⟩ => ⟨S1000000x64, .f32⟩
  | .hbm, ⟨77, _⟩ => ⟨S1000000x64, .f32⟩
  | .hbm, ⟨78, _⟩ => ⟨S1000000x64, .f32⟩
  | .hbm, ⟨79, _⟩ => ⟨S_, .f32⟩
  | .hbm, ⟨80, _⟩ => ⟨S100000x64, .f32⟩
  | .hbm, ⟨81, _⟩ => ⟨S1000000x1, .i32⟩
  | .hbm, ⟨82, _⟩ => ⟨S100000x64, .f32⟩
  | .hbm, ⟨83, _⟩ => ⟨S64x64, .f32⟩
  | .hbm, ⟨84, _⟩ => ⟨S100000x64, .f32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_c_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_1 : Ref sig .tc := ⟨.hbm, 49, rfl⟩
abbrev main_v32 : Ref sig .tc := ⟨.hbm, 50, rfl⟩
abbrev main_v33 : Ref sig .tc := ⟨.hbm, 51, rfl⟩
abbrev main_c_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_3 : Ref sig .tc := ⟨.hbm, 59, rfl⟩
abbrev main_v40 : Ref sig .tc := ⟨.hbm, 60, rfl⟩
abbrev main_v41 : Ref sig .tc := ⟨.hbm, 61, rfl⟩
abbrev main_c_4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst : Ref sig .tc := ⟨.hbm, 72, rfl⟩
abbrev main_v51 : Ref sig .tc := ⟨.hbm, 73, rfl⟩
abbrev main_v52 : Ref sig .tc := ⟨.hbm, 74, rfl⟩
abbrev main_cst_5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_6 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call0_cst : Ref sig .tc := ⟨.hbm, 89, rfl⟩
abbrev main_call0_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1000000x64_0_1 : S1x64.BroadcastsInDim S1000000x64 (![0, 1] : Fin 2 → Fin S1000000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x64 : S_.BroadcastsInDim S1000000x64 (![] : Fin 0 → Fin S1000000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  dot_S1000000x64_S64x64_S1000000x64_1_0_0_1_n_n_wf : DotDims.WF S1000000x64 S64x64 S1000000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.Spec.lean ====
/-
  What both programs compute, entry by entry, on the extended reals.

  A LINEAR LAYER's entry: row `r` of the input against column `q` of the (already transposed) weights, plus the bias,
  `(∑ k, r k · w k q) + b q`.
  A GATED MESSAGE's entry, for one edge: with `e` the edge projection's entry, the key projection of the destination
  node's row and the query and value projections of the source node's row, each with `e` added,
  `σ((key + e) + (query + e)) · (value + e)`, where `σ t = 1 / (1 + exp (-t))`.
  A NODE OUTPUT's entry: the aggregated messages plus the skip projection of the node's own row, clipped at zero,
  `max (agg + skip) 0`.
  The whole arrays `msgArr` and `outArr` read these at every (row, column).
-/
import Idealize.ShloMosaic.PureOps.Ideal
import Idealize.ShloMosaic.Lib.ValueIdx

noncomputable section

namespace Cert.Spec

open Idealize.ShloMosaic Idealize.ShloMosaic.ValueIdx

/-- The node-feature arrays, [100000 × 64]. -/
abbrev SNode : Shape := ⟨2, ![100000, 64]⟩
/-- The edge-feature arrays, [1000000 × 64]. -/
abbrev SEdge : Shape := ⟨2, ![1000000, 64]⟩

/-- One entry of a linear layer: a row against column `q` of the transposed weights, plus the bias. -/
def linE (row : Fin 64 → EReal) (w : Fin 64 → Fin 64 → EReal) (b : Fin 64 → EReal) (q : Fin 64) : EReal :=
  (∑ k : Fin 64, row k * w k q) + b q

/-- One entry of the gated message of an edge, from the destination node's row `rd`, the source node's row `rs`
    and the edge's attribute row `re`. -/
def msgE (rd rs re : Fin 64 → EReal) (wk wq wv we : Fin 64 → Fin 64 → EReal) (bk bq bv be : Fin 64 → EReal)
    (q : Fin 64) : EReal :=
  Ideal.logistic ((linE rd wk bk q + linE re we be q) + (linE rs wq bq q + linE re we be q))
    * (linE rs wv bv q + linE re we be q)

/-- One entry of a node's output, from its aggregated messages' entry `a` and its own row `rx`. -/
def outE (a : EReal) (rx : Fin 64 → EReal) (ws : Fin 64 → Fin 64 → EReal) (bs : Fin 64 → EReal) (q : Fin 64) : EReal :=
  max (a + linE rx ws bs q) 0

/-- The gated messages of all edges, from the gathered destination rows `xd`, the gathered source rows `xs` and the
    edge attributes `ea`. -/
def msgArr (xd xs ea : SEdge.Idx → EReal) (wk wq wv we : Fin 64 → Fin 64 → EReal) (bk bq bv be : Fin 64 → EReal) :
    SEdge.Idx → EReal :=
  fun i => msgE (fun k => xd (ix2 (i 0) k)) (fun k => xs (ix2 (i 0) k)) (fun k => ea (ix2 (i 0) k))
    wk wq wv we bk bq bv be (i 1)

/-- The outputs of all nodes, from the aggregated messages `agg` and the node features `x`. -/
def outArr (agg x : SNode.Idx → EReal) (ws : Fin 64 → Fin 64 → EReal) (bs : Fin 64 → EReal) : SNode.Idx → EReal :=
  fun i => outE (agg i) (fun k => x (ix2 (i 0) k)) ws bs (i 1)

/-- The start-index columns, [1000000 × 1]. -/
abbrev SCol : Shape := ⟨2, ![1000000, 1]⟩
/-- A weight matrix, [64 × 64], and a bias, [64]. -/
abbrev SW : Shape := ⟨2, ![64, 64]⟩
abbrev SB : Shape := ⟨1, ![64]⟩

/-- The weights as the layers use them: transposed. -/
def tw (W : SW.Idx → EReal) : Fin 64 → Fin 64 → EReal := fun k q => W (ix2 q k)
/-- A bias by its position. -/
def bv1 (b : SB.Idx → EReal) : Fin 64 → EReal := fun q => b (ix1 q)

/-- The whole layer: gather the destination and the source rows of the node features through the start-index columns
    `cd` and `cs`, form every edge's gated message, add the messages up per destination (the scatter-add through `dcol`
    into `zeros`), and finish every node with its skip projection and the clip at zero. -/
def final (gd : GatherDims SNode SCol SEdge) (sd : ScatterDims SNode SCol SEdge) (zeros : SNode.Idx → EReal)
    (dcol cd cs : SCol.Idx → BitVec 32) (x : SNode.Idx → EReal) (ea : SEdge.Idx → EReal)
    (Wk Wq Wv We Ws : SW.Idx → EReal) (bk bq bv be bs : SB.Idx → EReal) : SNode.Idx → EReal :=
  outArr (Host.scatterAdd (F := Ideal) (φ := .f32) sd zeros dcol
      (msgArr (Host.gather gd x cd) (Host.gather gd x cs) ea (tw Wk) (tw Wq) (tw Wv) (tw We) (bv1 bk) (bv1 bq) (bv1 bv) (bv1 be)))
    x (tw Ws) (bv1 bs)

end Cert.Spec

end
-- ==== Proof.HostDefs.lean ====
/-
  The host operations before the message region, as functions: the destination ids (row 1 of the edge index) and the
  source ids (row 0); the start-index column of a row gather (negatives wrapped by the table's length, laid as a column);
  and the FILLED TAKE of the node features' rows — the gathered rows where the wrapped index lies in `[0, 99999]`, the
  fill word elsewhere.
-/
import proofs.«417697_j40956808135195_2_alg».proof.Proof.Gen.KernelIdeal.Frame
import Idealize.ShloMosaic.Lib.StableHlo.Run

set_option maxRecDepth 16384

noncomputable section

namespace Cert.KernelIdeal.HostDefs

open Idealize.ShloMosaic Idealize.ShloMosaic.TcCoe Idealize.SL.Sem Idealize.ShloMosaic.StableHlo
open Cert.KernelIdeal Cert.KernelIdeal.Gen

variable {F : FTy → Type} [FloatOps F]

/-- The destination ids: row 1 of the edge index. -/
abbrev dstIds (ei : IVec S2x1000000 32) : IVec S1000000 32 :=
  shapeCast _ (extractStridedSlice S1x1000000 ![1, 0] ei slices_S2x1000000_S1x1000000_1_0) shapeCasts_S1x1000000_S1000000
/-- The source ids: row 0 of the edge index. -/
abbrev srcIds (ei : IVec S2x1000000 32) : IVec S1000000 32 :=
  shapeCast _ (extractStridedSlice S1x1000000 ![0, 0] ei slices_S2x1000000_S1x1000000_0_0) shapeCasts_S1x1000000_S1000000
/-- The start-index column of a row gather: negatives wrapped by the table's length, laid as a column. -/
abbrev wrapCol (v : IVec S1000000 32) : IVec S1000000x1 32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100000#32))) v)
/-- Per edge: does the wrapped index lie in `[0, 99999]`? -/
abbrev inRange (v : IVec S1000000 32) : IVec S1000000 1 :=
  Host.reduce IntOp.andi
    (andi (cmpi .sge (wrapCol v) (broadcastInDim S1000000x1 ![] bcast_S_S1000000x1 (constantI S_ 32 0#32)))
      (cmpi .sle (wrapCol v) (broadcastInDim S1000000x1 ![0, 1] bcast_S1x1_S1000000x1_0_1
        (broadcastInDim S1x1 ![1] bcast_S1_S1x1_1 (constantI S1 32 99999#32)))))
    (constantI S_ 1 1#1) reducesTo_S1000000x1_S1000000_d1 h_S_
/-- The filled take of the rows of `x` at the ids `v`. -/
abbrev takeFill (x : FVec F S100000x64 .f32) (v : IVec S1000000 32) : FVec F S1000000x64 .f32 :=
  select (broadcastInDim S1000000x64 ![0] bcast_S1000000_S1000000x64_0 (inRange v))
    (Host.gather gather_S100000x64_S1000000x1_S1000000x64_1_0_n_n_0_1_164 x (wrapCol v))
    (broadcastInDim S1000000x64 ![] bcast_S_S1000000x64 (constant S_ .f32 0x7FC00000#32))

end Cert.KernelIdeal.HostDefs

end
-- ==== Proof.Host0.lean ====
/-
  The first stretch of host operations (the edge index's two rows, the five transposed weight matrices in the narrow
  format, the five biases as rows), from any entry contents `X`: what each written buffer holds, and that the node
  features and the edge attributes are not written.
-/
import proofs.«417697_j40956808135195_2_alg».proof.Proof.Gen.KernelIdeal.Frame
import proofs.«417697_j40956808135195_2_alg».proof.Proof.HostDefs
import Idealize.ShloMosaic.Lib.StableHlo.Run

set_option maxRecDepth 16384

noncomputable section

namespace Cert.KernelIdeal.Host0

open Idealize.ShloMosaic Idealize.ShloMosaic.TcCoe Idealize.SL.Sem Idealize.ShloMosaic.StableHlo
open Cert.KernelIdeal Cert.KernelIdeal.Gen Cert.KernelIdeal.HostDefs

variable {F : FTy → Type} [FloatOps F]

variable (X : Valuation τ sig (Elt F))

theorem val_v1 : StableHlo.after hostOps0 X (Proc.devRef .tc main_v1) = srcIds (X (Proc.devRef .tc main_arg1)) := by
  after_results_simp <;> rfl
theorem val_v3 : StableHlo.after hostOps0 X (Proc.devRef .tc main_v3) = dstIds (X (Proc.devRef .tc main_arg1)) := by
  after_results_simp <;> rfl
theorem val_v5 : StableHlo.after hostOps0 X (Proc.devRef .tc main_v5) = truncf .bf16 (transpose S64x64 [1, 0] (X (Proc.devRef .tc main_arg5)) transposes_S64x64_S64x64_1_0) bitsLt_bf16_f32 := by
  after_results_simp <;> rfl
theorem val_v7 : StableHlo.after hostOps0 X (Proc.devRef .tc main_v7) = truncf .bf16 (transpose S64x64 [1, 0] (X (Proc.devRef .tc main_arg7)) transposes_S64x64_S64x64_1_0) bitsLt_bf16_f32 := by
  after_results_simp <;> rfl
theorem val_v9 : StableHlo.after hostOps0 X (Proc.devRef .tc main_v9) = truncf .bf16 (transpose S64x64 [1, 0] (X (Proc.devRef .tc main_arg9)) transposes_S64x64_S64x64_1_0) bitsLt_bf16_f32 := by
  after_results_simp <;> rfl
theorem val_v11 : StableHlo.after hostOps0 X (Proc.devRef .tc main_v11) = truncf .bf16 (transpose S64x64 [1, 0] (X (Proc.devRef .tc main_arg11)) transposes_S64x64_S64x64_1_0) bitsLt_bf16_f32 := by
  after_results_simp <;> rfl
theorem val_v13 : StableHlo.after hostOps0 X (Proc.devRef .tc main_v13) = truncf .bf16 (transpose S64x64 [1, 0] (X (Proc.devRef .tc main_arg13)) transposes_S64x64_S64x64_1_0) bitsLt_bf16_f32 := by
  after_results_simp <;> rfl
theorem val_v14 : StableHlo.after hostOps0 X (Proc.devRef .tc main_v14) = shapeCast S1x64 (X (Proc.devRef .tc main_arg6)) shapeCasts_S64_S1x64 := by
  after_results_simp <;> rfl
theorem val_v15 : StableHlo.after hostOps0 X (Proc.devRef .tc main_v15) = shapeCast S1x64 (X (Proc.devRef .tc main_arg8)) shapeCasts_S64_S1x64 := by
  after_results_simp <;> rfl
theorem val_v16 : StableHlo.after hostOps0 X (Proc.devRef .tc main_v16) = shapeCast S1x64 (X (Proc.devRef .tc main_arg10)) shapeCasts_S64_S1x64 := by
  after_results_simp <;> rfl
theorem val_v17 : StableHlo.after hostOps0 X (Proc.devRef .tc main_v17) = shapeCast S1x64 (X (Proc.devRef .tc main_arg12)) shapeCasts_S64_S1x64 := by
  after_results_simp <;> rfl
theorem val_v18 : StableHlo.after hostOps0 X (Proc.devRef .tc main_v18) = shapeCast S1x64 (X (Proc.devRef .tc main_arg14)) shapeCasts_S64_S1x64 := by
  after_results_simp <;> rfl
theorem keep_arg0 : StableHlo.after hostOps0 X (Proc.devRef .tc main_arg0) = X (Proc.devRef .tc main_arg0) := by
  after_results_simp
theorem keep_arg2 : StableHlo.after hostOps0 X (Proc.devRef .tc main_arg2) = X (Proc.devRef .tc main_arg2) := by
  after_results_simp

end Cert.KernelIdeal.Host0

end
-- ==== Proof.Keep1.lean ====
/-
  The destination take's stretch of host operations writes none of the buffers the later items read: the node
  features, the edge attributes, the two id rows, the weights and the biases hold what they held.
-/
import proofs.«417697_j40956808135195_2_alg».proof.Proof.Gen.KernelIdeal.Frame
import Idealize.ShloMosaic.Lib.StableHlo.Run

set_option maxRecDepth 16384

noncomputable section

namespace Cert.KernelIdeal.Keep1

open Idealize.ShloMosaic Idealize.ShloMosaic.TcCoe Idealize.SL.Sem Idealize.ShloMosaic.StableHlo
open Cert.KernelIdeal Cert.KernelIdeal.Gen

variable {F : FTy → Type} [FloatOps F]

variable (X : Valuation τ sig (Elt F))

theorem keep_arg0 : StableHlo.after hostOps0_1 X (Proc.devRef .tc main_arg0) = X (Proc.devRef .tc main_arg0) := by
  after_results_simp
theorem keep_arg2 : StableHlo.after hostOps0_1 X (Proc.devRef .tc main_arg2) = X (Proc.devRef .tc main_arg2) := by
  after_results_simp
theorem keep_v1 : StableHlo.after hostOps0_1 X (Proc.devRef .tc main_v1) = X (Proc.devRef .tc main_v1) := by
  after_results_simp
theorem keep_v3 : StableHlo.after hostOps0_1 X (Proc.devRef .tc main_v3) = X (Proc.devRef .tc main_v3) := by
  after_results_simp
theorem keep_v5 : StableHlo.after hostOps0_1 X (Proc.devRef .tc main_v5) = X (Proc.devRef .tc main_v5) := by
  after_results_simp
theorem keep_v7 : StableHlo.after hostOps0_1 X (Proc.devRef .tc main_v7) = X (Proc.devRef .tc main_v7) := by
  after_results_simp
theorem keep_v9 : StableHlo.after hostOps0_1 X (Proc.devRef .tc main_v9) = X (Proc.devRef .tc main_v9) := by
  after_results_simp
theorem keep_v11 : StableHlo.after hostOps0_1 X (Proc.devRef .tc main_v11) = X (Proc.devRef .tc main_v11) := by
  after_results_simp
theorem keep_v13 : StableHlo.after hostOps0_1 X (Proc.devRef .tc main_v13) = X (Proc.devRef .tc main_v13) := by
  after_results_simp
theorem keep_v14 : StableHlo.after hostOps0_1 X (Proc.devRef .tc main_v14) = X (Proc.devRef .tc main_v14) := by
  after_results_simp
theorem keep_v15 : StableHlo.after hostOps0_1 X (Proc.devRef .tc main_v15) = X (Proc.devRef .tc main_v15) := by
  after_results_simp
theorem keep_v16 : StableHlo.after hostOps0_1 X (Proc.devRef .tc main_v16) = X (Proc.devRef .tc main_v16) := by
  after_results_simp
theorem keep_v17 : StableHlo.after hostOps0_1 X (Proc.devRef .tc main_v17) = X (Proc.devRef .tc main_v17) := by
  after_results_simp
theorem keep_v18 : StableHlo.after hostOps0_1 X (Proc.devRef .tc main_v18) = X (Proc.devRef .tc main_v18) := by
  after_results_simp

end Cert.KernelIdeal.Keep1

end
-- ==== Proof.Keep2.lean ====
/-
  The source take's stretch of host operations writes none of the buffers the later items read: the node features,
  the edge attributes, the two id rows, the weights, the biases and the gathered destination rows hold what they held.
-/
import proofs.«417697_j40956808135195_2_alg».proof.Proof.Gen.KernelIdeal.Frame
import Idealize.ShloMosaic.Lib.StableHlo.Run

set_option maxRecDepth 16384

noncomputable section

namespace Cert.KernelIdeal.Keep2

open Idealize.ShloMosaic Idealize.ShloMosaic.TcCoe Idealize.SL.Sem Idealize.ShloMosaic.StableHlo
open Cert.KernelIdeal Cert.KernelIdeal.Gen

variable {F : FTy → Type} [FloatOps F]

variable (X : Valuation τ sig (Elt F))

theorem keep_arg0 : StableHlo.after hostOps0_2 X (Proc.devRef .tc main_arg0) = X (Proc.devRef .tc main_arg0) := by
  after_results_simp
theorem keep_arg2 : StableHlo.after hostOps0_2 X (Proc.devRef .tc main_arg2) = X (Proc.devRef .tc main_arg2) := by
  after_results_simp
theorem keep_v1 : StableHlo.after hostOps0_2 X (Proc.devRef .tc main_v1) = X (Proc.devRef .tc main_v1) := by
  after_results_simp
theorem keep_v3 : StableHlo.after hostOps0_2 X (Proc.devRef .tc main_v3) = X (Proc.devRef .tc main_v3) := by
  after_results_simp
theorem keep_v5 : StableHlo.after hostOps0_2 X (Proc.devRef .tc main_v5) = X (Proc.devRef .tc main_v5) := by
  after_results_simp
theorem keep_v7 : StableHlo.after hostOps0_2 X (Proc.devRef .tc main_v7) = X (Proc.devRef .tc main_v7) := by
  after_results_simp
theorem keep_v9 : StableHlo.after hostOps0_2 X (Proc.devRef .tc main_v9) = X (Proc.devRef .tc main_v9) := by
  after_results_simp
theorem keep_v11 : StableHlo.after hostOps0_2 X (Proc.devRef .tc main_v11) = X (Proc.devRef .tc main_v11) := by
  after_results_simp
theorem keep_v13 : StableHlo.after hostOps0_2 X (Proc.devRef .tc main_v13) = X (Proc.devRef .tc main_v13) := by
  after_results_simp
theorem keep_v14 : StableHlo.after hostOps0_2 X (Proc.devRef .tc main_v14) = X (Proc.devRef .tc main_v14) := by
  after_results_simp
theorem keep_v15 : StableHlo.after hostOps0_2 X (Proc.devRef .tc main_v15) = X (Proc.devRef .tc main_v15) := by
  after_results_simp
theorem keep_v16 : StableHlo.after hostOps0_2 X (Proc.devRef .tc main_v16) = X (Proc.devRef .tc main_v16) := by
  after_results_simp
theorem keep_v17 : StableHlo.after hostOps0_2 X (Proc.devRef .tc main_v17) = X (Proc.devRef .tc main_v17) := by
  after_results_simp
theorem keep_v18 : StableHlo.after hostOps0_2 X (Proc.devRef .tc main_v18) = X (Proc.devRef .tc main_v18) := by
  after_results_simp
theorem keep_v19 : StableHlo.after hostOps0_2 X (Proc.devRef .tc main_v19) = X (Proc.devRef .tc main_v19) := by
  after_results_simp

end Cert.KernelIdeal.Keep2

end
-- ==== Proof.LibTRef.lean ====
/-
  A typed reference's two transports cancel. A module-local function's operation reads each operand by carrying the
  buffer's contents to the value's type and writes its result by carrying it back; the value's type IS the buffer's, so a
  result read by the next operation is the value itself.
-/
import Idealize.ShloMosaic.Lib.StableHlo

namespace Idealize.ShloMosaic.StableHlo.TRef

/-- Contents carried to a buffer's own type and back are themselves. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Idealize.ShloMosaic.StableHlo.TRef
-- ==== Proof.Take1.lean ====
/-
  The destination take's stretch of host operations, as one function of its two inputs: twenty-three operations (wrap
  the negative ids, lay them as a column, test the range, gather, select against the fill word) compose to the filled
  take.
-/
import proofs.«417697_j40956808135195_2_alg».proof.Proof.Gen.KernelIdeal.Frame
import proofs.«417697_j40956808135195_2_alg».proof.Proof.HostDefs
import proofs.«417697_j40956808135195_2_alg».proof.Proof.LibTRef
import Idealize.ShloMosaic.Lib.StableHlo.Run

set_option maxRecDepth 16384

noncomputable section

namespace Cert.KernelIdeal.Take1

open Idealize.ShloMosaic Idealize.ShloMosaic.TcCoe Idealize.SL.Sem Idealize.ShloMosaic.StableHlo
open Cert.KernelIdeal Cert.KernelIdeal.Gen Cert.KernelIdeal.HostDefs

variable {F : FTy → Type} [FloatOps F]

variable (X : Valuation τ sig (Elt F))

set_option maxHeartbeats 4000000 in
/-- The take's stretch, from any entry contents: its result buffer ends at the filled take of the node features' rows at
    the ids it was given. -/
theorem val_take : StableHlo.after hostOps0_1 X (Proc.devRef .tc main_v19)
    = takeFill (X (Proc.devRef .tc main_arg0)) (X (Proc.devRef .tc main_v3)) := by
  after_results_simp
  simp only [TRef.ofBuf_toBuf]
  simp only [TRef.toBuf, TRef.ofBuf, cast_eq]

end Cert.KernelIdeal.Take1

end
-- ==== Proof.Take2.lean ====
/-
  The source take's stretch of host operations, as one function of its two inputs: twenty-three operations (wrap the
  negative ids, lay them as a column, test the range, gather, select against the fill word) compose to the filled
  take.
-/
import proofs.«417697_j40956808135195_2_alg».proof.Proof.Gen.KernelIdeal.Frame
import proofs.«417697_j40956808135195_2_alg».proof.Proof.HostDefs
import proofs.«417697_j40956808135195_2_alg».proof.Proof.LibTRef
import Idealize.ShloMosaic.Lib.StableHlo.Run

set_option maxRecDepth 16384

noncomputable section

namespace Cert.KernelIdeal.Take2

open Idealize.ShloMosaic Idealize.ShloMosaic.TcCoe Idealize.SL.Sem Idealize.ShloMosaic.StableHlo
open Cert.KernelIdeal Cert.KernelIdeal.Gen Cert.KernelIdeal.HostDefs

variable {F : FTy → Type} [FloatOps F]

variable (X : Valuation τ sig (Elt F))

set_option maxHeartbeats 4000000 in
/-- The take's stretch, from any entry contents: its result buffer ends at the filled take of the node features' rows at
    the ids it was given. -/
theorem val_take : StableHlo.after hostOps0_2 X (Proc.devRef .tc main_v20)
    = takeFill (X (Proc.devRef .tc main_arg0)) (X (Proc.devRef .tc main_v1)) := by
  after_results_simp
  simp only [TRef.ofBuf_toBuf]
  simp only [TRef.toBuf, TRef.ofBuf, cast_eq]

end Cert.KernelIdeal.Take2

end
-- ==== Proof.Host3.lean ====
/-
  The stretch of host operations between the two regions, from any entry contents `X`: a zero array, the destination
  ids as a column, and the scatter-add of the message array into the zeros through that column; the node features, the
  skip weights and the skip bias are not written.
-/
import proofs.«417697_j40956808135195_2_alg».proof.Proof.Gen.KernelIdeal.Frame
import Idealize.ShloMosaic.Lib.StableHlo.Run

set_option maxRecDepth 16384

noncomputable section

namespace Cert.KernelIdeal.Host3

open Idealize.ShloMosaic Idealize.ShloMosaic.TcCoe Idealize.SL.Sem Idealize.ShloMosaic.StableHlo
open Cert.KernelIdeal Cert.KernelIdeal.Gen

variable {F : FTy → Type} [FloatOps F]

variable (X : Valuation τ sig (Elt F))

/-- The aggregate: the messages added up per destination id. -/
theorem val_v24 : StableHlo.after hostOps1 X (Proc.devRef .tc main_v24)
    = Host.scatterAdd scatter_S100000x64_S1000000x1_S1000000x64_1_0_0_1
        (broadcastInDim S100000x64 ![] bcast_S_S100000x64 (constant S_ .f32 0x00000000#32))
        (broadcastInDim S1000000x1 ![0] bcast_S1000000_S1000000x1_0 (X (Proc.devRef .tc main_v3)))
        (X (Proc.devRef .tc main_v21)) := by
  after_results_simp <;> rfl
theorem keep_arg0 : StableHlo.after hostOps1 X (Proc.devRef .tc main_arg0) = X (Proc.devRef .tc main_arg0) := by
  after_results_simp
theorem keep_v13 : StableHlo.after hostOps1 X (Proc.devRef .tc main_v13) = X (Proc.devRef .tc main_v13) := by
  after_results_simp
theorem keep_v18 : StableHlo.after hostOps1 X (Proc.devRef .tc main_v18) = X (Proc.devRef .tc main_v18) := by
  after_results_simp

end Cert.KernelIdeal.Host3

end
-- ==== Proof.LibMask.lean ====
/-
  A FILLED TAKE whose indices are all in range is the plain gather. Three small facts:
  a `select` under a mask that is 1 everywhere is its first branch; a reduce by `and` of words that are all 1, from 1,
  is 1; and for a 32-bit word `a` with `0 ≤ a < 100000` (signed) the wrap of negatives leaves `a` alone and the
  range test `0 ≤ a ≤ 99999` holds.
-/
import Idealize.ShloMosaic.PureOps.Reduce
import Idealize.ShloMosaic.PureOps.Vector
import Idealize.ShloMosaic.Lib.Affine
import Idealize.ShloMosaic.Lib.ValueIdx

namespace Idealize.ShloMosaic.TakeMask

open Idealize.ShloMosaic

/-- Under a mask that is 1 at every index a `select` is its first branch. -/
theorem select_of_all_one {s : Shape} {α : Type} (c : IVec s 1) (a b : s.Idx → α) (h : ∀ i, c i = 1#1) :
    select c a b = a := by
  funext i
  show Scalar.select (c i) (a i) (b i) = a i
  rw [h i]
  exact ValueIdx.select_one _ _

/-- A left fold by `and` from 1 over any list of positions, when the word at every position is 1, stays 1. -/
private theorem foldl_andi_of_all_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a]
    have h11 : IntOp.andi 1#1 1#1 = 1#1 := by decide
    rw [h11]
    exact ih

/-- A reduce by `and` from 1 of words that are all 1 is 1. -/
theorem reduce_andi_of_all_one {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl, hinit]
  exact foldl_andi_of_all_one x hx _

/-- A word in `[0, 100000)` is not negative: the wrap `a < 0 ? a + 100000 : a` is `a`. -/
theorem wrap_eq_self (a : BitVec 32) (h0 : IntOp.cmpi .sge a 0#32 = 1#1) :
    Scalar.select (IntOp.cmpi .slt a 0#32) (IntOp.addi a 100000#32) a = a := by
  have hz : (0#32 : BitVec 32).toInt = 0 := by decide
  have hge : (0#32 : BitVec 32).toInt ≤ a.toInt := IntOp.cmpi_sge.mp h0
  have hlt : ¬ IntOp.cmpi .slt a 0#32 = 1#1 := by
    rw [IntOp.cmpi_slt]
    omega
  rw [ValueIdx.eq_zero_of_ne_one hlt]
  exact ValueIdx.select_zero _ _

/-- A word in `[0, 100000)` passes the range test `0 ≤ a ∧ a ≤ 99999`. -/
theorem inrange_of_pre (a : BitVec 32) (h0 : IntOp.cmpi .sge a 0#32 = 1#1) (h1 : IntOp.cmpi .slt a 100000#32 = 1#1) :
    IntOp.andi (IntOp.cmpi .sge a 0#32) (IntOp.cmpi .sle a 99999#32) = 1#1 := by
  rw [IntOp.andi_eq_one]
  refine ⟨h0, ?_⟩
  rw [IntOp.cmpi_sle]
  have hlt : a.toInt < (100000#32 : BitVec 32).toInt := IntOp.cmpi_slt.mp h1
  have e1 : (100000#32 : BitVec 32).toInt = 100000 := by decide
  have e2 : (99999#32 : BitVec 32).toInt = 99999 := by decide
  omega

end Idealize.ShloMosaic.TakeMask
-- ==== Proof.TakeK.lean ====
/-
  Under the precondition the FILLED TAKE is the plain row gather. If every id is in `[0, 100000)` (signed), the wrap of
  negatives leaves it alone and the range test `0 ≤ · ≤ 99999` on the wrapped id holds at every edge; the per-edge
  reduce by `and` (over the column's one entry) is then 1, its broadcast over the 64 columns is 1 everywhere, and the
  `select` keeps the gathered rows: no fill word is ever read.
-/
import proofs.«417697_j40956808135195_2_alg».proof.Proof.HostDefs
import proofs.«417697_j40956808135195_2_alg».proof.Proof.LibMask

noncomputable section

namespace Cert.KernelIdeal.TakeK

open Idealize.ShloMosaic Idealize.ShloMosaic.TcCoe
open Cert.KernelIdeal Cert.KernelIdeal.HostDefs

variable {F : FTy → Type} [FloatOps F]

/-- One id in `[0, 100000)`: wrapped, it passes the range test. -/
theorem word_ok (a : BitVec 32) (h0 : IntOp.cmpi .sge a 0#32 = 1#1) (h1 : IntOp.cmpi .slt a 100000#32 = 1#1) :
    IntOp.andi (IntOp.cmpi .sge (Scalar.select (IntOp.cmpi .slt a 0#32) (IntOp.addi a 100000#32) a) 0#32)
      (IntOp.cmpi .sle (Scalar.select (IntOp.cmpi .slt a 0#32) (IntOp.addi a 100000#32) a) 99999#32) = 1#1 := by
  rw [TakeMask.wrap_eq_self a h0]
  exact TakeMask.inrange_of_pre a h0 h1

/-- With every id in range the range mask is 1 at every edge. -/
theorem inRange_one (v : IVec S1000000 32)
    (hv : ∀ e, IntOp.cmpi .sge (v e) 0#32 = 1#1 ∧ IntOp.cmpi .slt (v e) 100000#32 = 1#1) (e : S1000000.Idx) :
    inRange v e = 1#1 := by
  refine TakeMask.reduce_andi_of_all_one _ _ _ _ (fun _ => rfl) (fun j => ?_) e
  have key : ∀ e' : S1000000.Idx,
      IntOp.andi (IntOp.cmpi .sge (Scalar.select (IntOp.cmpi .slt (v e') 0#32) (IntOp.addi (v e') 100000#32) (v e')) 0#32)
        (IntOp.cmpi .sle (Scalar.select (IntOp.cmpi .slt (v e') 0#32) (IntOp.addi (v e') 100000#32) (v e')) 99999#32) = 1#1 :=
    fun e' => word_ok (v e') (hv e').1 (hv e').2
  exact key _

/-- With every id in range the filled take is the gather. -/
theorem takeFill_eq_gather (x : FVec F S100000x64 .f32) (v : IVec S1000000 32)
    (hv : ∀ e, IntOp.cmpi .sge (v e) 0#32 = 1#1 ∧ IntOp.cmpi .slt (v e) 100000#32 = 1#1) :
    takeFill x v = Host.gather gather_S100000x64_S1000000x1_S1000000x64_1_0_n_n_0_1_164 x (wrapCol v) :=
  TakeMask.select_of_all_one _ _ _ (fun i => inRange_one v hv _)

end Cert.KernelIdeal.TakeK

end
-- ==== Proof.Payload.lean ====
/-
  The two kernel bodies' stored blocks, read at an entry on the extended reals.
  The message kernel's block at (p, q) is the gated message `Spec.msgE` of row `p` of its three streamed blocks
  (destination rows, source rows, edge attributes) against the four resident weight blocks and bias rows;
  the combine kernel's block at (p, q) is the node output `Spec.outE` of the aggregate's entry and row `p` of the
  node block. Each matrix product into a zero accumulator is the plain sum over the contracted axis, a change of float
  format is the identity, and the logistic is `1 / (1 + exp (-t))`.
-/
import proofs.«417697_j40956808135195_2_alg».proof.Proof.Gen.KernelIdeal.Frame
import proofs.«417697_j40956808135195_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-- The origin of a whole block: both offsets are zero. -/
private theorem origin_zero : (![0, 0] : Fin 2 → Nat) = fun _ => 0 :=
  funext fun a => match a with
    | ⟨0, _⟩ => rfl
    | ⟨1, _⟩ => rfl

/-! ## The matrix products at an entry

For each of the two products' dimension records: the left operand is read at (row of the output, contracted
coordinate), the right operand at (contracted coordinate, column of the output). -/

private theorem lhs4_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
private theorem lhs4_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
private theorem rhs4_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
private theorem rhs4_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- A [4000 × 64] block times a [64 × 64] block into the zero accumulator, read at (p, q): the sum over the
    contracted axis of the left block's row `p` against the right block's column `q`. -/
private theorem mm4 (a : FVec Ideal S4000x64 .bf16) (b : FVec Ideal S64x64 .bf16) (p : Fin 4000) (q : Fin 64) :
    matmul dot_S4000x64_S64x64_S4000x64_1_0_0_1_n_n none a b (constant (F := Ideal) S4000x64 .f32 0x00000000#32) (ix2 p q)
      = ∑ k : Fin 64, a (ix2 p k) * b (ix2 k q) := by
  show FloatOps.matmul dot_S4000x64_S64x64_S4000x64_1_0_0_1_n_n none a b (constant (F := Ideal) S4000x64 .f32 0x00000000#32) (ix2 p q) = _
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs4_0 _ _
    | ⟨1, _⟩ => exact (lhs4_1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs4_0 _ _).trans hk
    | ⟨1, _⟩ => exact rhs4_1 _ _)
  rw [el, er]

private theorem lhs5_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
private theorem lhs5_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
private theorem rhs5_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
private theorem rhs5_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000 × 64] block times a [64 × 64] block into the zero accumulator, read at (p, q): the sum over the
    contracted axis of the left block's row `p` against the right block's column `q`. -/
private theorem mm5 (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  show FloatOps.matmul dot_S5000x64_S64x64_S5000x64_1_0_0_1_n_n none a b (constant (F := Ideal) S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs5_0 _ _
    | ⟨1, _⟩ => exact (lhs5_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs5_0 _ _).trans hk
    | ⟨1, _⟩ => exact rhs5_1 _ _)
  rw [el, er]

/-! ## The stored blocks at an entry -/

/-- The message kernel's stored block at row `p`, column `q`. -/
theorem out0_11_apply (x0 x1 x2 : Vec Ideal S4000x64 .f32) (x3 x4 x5 x6 : Vec Ideal S64x64 .bf16)
    (x7 x8 x9 x10 : Vec Ideal S1x64 .f32) (p : Fin 4000) (q : Fin 64) :
    out0_11 (F := Ideal) x0 x1 x2 x3 x4 x5 x6 x7 x8 x9 x10 (ix2 p q)
      = Cert.Spec.msgE (fun k => x0 (ix2 p k)) (fun k => x1 (ix2 p k)) (fun k => x2 (ix2 p k))
          (fun k q' => x3 (ix2 k q')) (fun k q' => x4 (ix2 k q')) (fun k q' => x5 (ix2 k q')) (fun k q' => x6 (ix2 k q'))
          (fun q' => x7 (ix2 0 q')) (fun q' => x8 (ix2 0 q')) (fun q' => x9 (ix2 0 q')) (fun q' => x10 (ix2 0 q')) q := by
  unfold out0_11
  rw [View.canon_unit_zero origin_zero]
  simp only [View.ld_unit_zero (S := S4000x64) origin_zero, View.ld_unit_zero (S := S64x64) origin_zero,
    View.ld_unit_zero (S := S1x64) origin_zero]
  unfold k0_pay1 k0_pay4 k0_pay5 k0_pay6 k0_pay3 k0_pay2
  simp only [shapeCast_self, mulf_apply, addf_apply, logistic, broadcastTo_1b_ab_apply, mm4, truncf_apply,
    Ideal.logistic_def]
  rfl

/-- The combine kernel's stored block at row `p`, column `q`. -/
theorem out1_4_apply (x0 x1 : Vec Ideal S5000x64 .f32) (x2 : Vec Ideal S64x64 .bf16) (x3 : Vec Ideal S1x64 .f32)
    (p : Fin 5000) (q : Fin 64) :
    out1_4 (F := Ideal) x0 x1 x2 x3 (ix2 p q)
      = Cert.Spec.outE (x0 (ix2 p q)) (fun k => x1 (ix2 p k)) (fun k q' => x2 (ix2 k q')) (fun q' => x3 (ix2 0 q')) q := by
  unfold out1_4
  rw [View.canon_unit_zero origin_zero]
  simp only [View.ld_unit_zero (S := S5000x64) origin_zero, View.ld_unit_zero (S := S64x64) origin_zero,
    View.ld_unit_zero (S := S1x64) origin_zero]
  unfold k1_pay1
  simp only [shapeCast_self, maximumf_apply, addf_apply, broadcast_apply, broadcastTo_1b_ab_apply, mm5, truncf_apply]
  show max _ (Ideal.ofBits .f32 0x00000000#32) = _
  rw [Ideal.ofBits_zero_f32]
  rfl

end Cert.KernelIdeal.Payload

end
-- ==== Proof.Blocks0.lean ====
/-
  The message region's output array, whole. Its grid has 250 points; at point `t` the gathered destination rows, the
  gathered source rows and the edge attributes' windows hold rows `4000·t … 4000·t + 3999` of their arrays, the four
  weight matrices and the four bias rows are resident whole, and the point writes back those same rows of the
  message array. The written block at (p, q) is `Spec.msgE` of row `p` of the three streamed blocks (the body's stored
  block read at an entry), so block `t` is the restriction of ONE whole-array function, `Spec.msgArr`; the 250 blocks
  tile the array (row `r` lies in block `r / 4000`), hence the array ends holding `Spec.msgArr` of the arrays the region
  found.
-/
import proofs.«417697_j40956808135195_2_alg».proof.Proof.Gen.KernelIdeal.Frame
import proofs.«417697_j40956808135195_2_alg».proof.Proof.Spec
import proofs.«417697_j40956808135195_2_alg».proof.Proof.Payload
import Idealize.ShloMosaic.Lib.ValueIdx
import Idealize.ShloMosaic.Lib.Pipeline.Value

set_option maxRecDepth 16384

noncomputable section

namespace Cert.KernelIdeal.Blocks0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The printed index maps over the 250 points: the three streamed windows and the output sit at block row `t`,
    column block 0. -/
theorem idx_stream : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0 :=
  (by decide +kernel : ∀ t : Fin grid0.N, _)

/-- The resident windows sit at block (0, 0) at every point. -/
theorem idx_resident : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

theorem tlt (t : Fin cfg0.N) : t.val < 250 := by
  have h : cfg0.N = 250 := N_0
  have := t.isLt
  omega

/-- Row `p` of point `t`'s block is row `4000·t + p` of the array. -/
def arow (t : Fin cfg0.N) (p : Fin 4000) : Fin 1000000 := ⟨t.val * 4000 + p.val, by have := tlt t; have := p.isLt; omega⟩

/-- The gathered destination rows' block at point `t` reads rows `4000·t + p` of its array. -/
theorem blk0 (c : Dev nD) (t : Fin cfg0.N) (p : Fin 4000) (k : Fin 64) :
    iblk0 V c 0 t (ix2 p k) = V c main_v19 (ix2 (arow t p) k) := by
  obtain ⟨a0, a1, b0, b1, c0, c1, -⟩ := idx_stream t
  show V c main_v19 (((cfg0.win 0).blk t).view.emb (ix2 p k)) = V c main_v19 (ix2 (arow t p) k)
  refine congrArg (V c main_v19) ?_
  funext a; apply Fin.ext
  match a with
  | ⟨0, _⟩ => show win0_0.index t (0 : Fin 2) * 4000 + 1 * p.val = t.val * 4000 + p.val; omega
  | ⟨1, _⟩ => show win0_0.index t (1 : Fin 2) * 64 + 1 * k.val = k.val; omega

/-- The gathered source rows' block at point `t` reads rows `4000·t + p` of its array. -/
theorem blk1 (c : Dev nD) (t : Fin cfg0.N) (p : Fin 4000) (k : Fin 64) :
    iblk0 V c 1 t (ix2 p k) = V c main_v20 (ix2 (arow t p) k) := by
  obtain ⟨a0, a1, b0, b1, c0, c1, -⟩ := idx_stream t
  show V c main_v20 (((cfg0.win 1).blk t).view.emb (ix2 p k)) = V c main_v20 (ix2 (arow t p) k)
  refine congrArg (V c main_v20) ?_
  funext a; apply Fin.ext
  match a with
  | ⟨0, _⟩ => show win0_1.index t (0 : Fin 2) * 4000 + 1 * p.val = t.val * 4000 + p.val; omega
  | ⟨1, _⟩ => show win0_1.index t (1 : Fin 2) * 64 + 1 * k.val = k.val; omega

/-- The edge attributes' block at point `t` reads rows `4000·t + p` of its array. -/
theorem blk2 (c : Dev nD) (t : Fin cfg0.N) (p : Fin 4000) (k : Fin 64) :
    iblk0 V c 2 t (ix2 p k) = V c main_arg2 (ix2 (arow t p) k) := by
  obtain ⟨a0, a1, b0, b1, c0, c1, -⟩ := idx_stream t
  show V c main_arg2 (((cfg0.win 2).blk t).view.emb (ix2 p k)) = V c main_arg2 (ix2 (arow t p) k)
  refine congrArg (V c main_arg2) ?_
  funext a; apply Fin.ext
  match a with
  | ⟨0, _⟩ => show win0_2.index t (0 : Fin 2) * 4000 + 1 * p.val = t.val * 4000 + p.val; omega
  | ⟨1, _⟩ => show win0_2.index t (1 : Fin 2) * 64 + 1 * k.val = k.val; omega

/-- A weight matrix's block is the whole matrix at every point. -/
theorem blk3 (c : Dev nD) (t : Fin cfg0.N) (k q : Fin 64) :
    iblk0 V c 3 t (ix2 k q) = V c main_v5 (ix2 k q) := by
  obtain ⟨a0, a1, b0, b1, c0, c1, d0, d1, -⟩ := idx_resident t
  show V c main_v5 (((cfg0.win 3).blk t).view.emb (ix2 k q)) = V c main_v5 (ix2 k q)
  refine congrArg (V c main_v5) ?_
  funext a; apply Fin.ext
  match a with
  | ⟨0, _⟩ => show win0_3.index t (0 : Fin 2) * 64 + 1 * k.val = k.val; omega
  | ⟨1, _⟩ => show win0_3.index t (1 : Fin 2) * 64 + 1 * q.val = q.val; omega

/-- A weight matrix's block is the whole matrix at every point. -/
theorem blk4 (c : Dev nD) (t : Fin cfg0.N) (k q : Fin 64) :
    iblk0 V c 4 t (ix2 k q) = V c main_v7 (ix2 k q) := by
  obtain ⟨a0, a1, b0, b1, c0, c1, d0, d1, -⟩ := idx_resident t
  show V c main_v7 (((cfg0.win 4).blk t).view.emb (ix2 k q)) = V c main_v7 (ix2 k q)
  refine congrArg (V c main_v7) ?_
  funext a; apply Fin.ext
  match a with
  | ⟨0, _⟩ => show win0_4.index t (0 : Fin 2) * 64 + 1 * k.val = k.val; omega
  | ⟨1, _⟩ => show win0_4.index t (1 : Fin 2) * 64 + 1 * q.val = q.val; omega

/-- A weight matrix's block is the whole matrix at every point. -/
theorem blk5 (c : Dev nD) (t : Fin cfg0.N) (k q : Fin 64) :
    iblk0 V c 5 t (ix2 k q) = V c main_v9 (ix2 k q) := by
  obtain ⟨a0, a1, b0, b1, c0, c1, d0, d1, -⟩ := idx_resident t
  show V c main_v9 (((cfg0.win 5).blk t).view.emb (ix2 k q)) = V c main_v9 (ix2 k q)
  refine congrArg (V c main_v9) ?_
  funext a; apply Fin.ext
  match a with
  | ⟨0, _⟩ => show win0_5.index t (0 : Fin 2) * 64 + 1 * k.val = k.val; omega
  | ⟨1, _⟩ => show win0_5.index t (1 : Fin 2) * 64 + 1 * q.val = q.val; omega

/-- A weight matrix's block is the whole matrix at every point. -/
theorem blk6 (c : Dev nD) (t : Fin cfg0.N) (k q : Fin 64) :
    iblk0 V c 6 t (ix2 k q) = V c main_v11 (ix2 k q) := by
  obtain ⟨a0, a1, b0, b1, c0, c1, d0, d1, -⟩ := idx_resident t
  show V c main_v11 (((cfg0.win 6).blk t).view.emb (ix2 k q)) = V c main_v11 (ix2 k q)
  refine congrArg (V c main_v11) ?_
  funext a; apply Fin.ext
  match a with
  | ⟨0, _⟩ => show win0_6.index t (0 : Fin 2) * 64 + 1 * k.val = k.val; omega
  | ⟨1, _⟩ => show win0_6.index t (1 : Fin 2) * 64 + 1 * q.val = q.val; omega

/-- A bias row's block is the whole row at every point. -/
theorem blk7 (c : Dev nD) (t : Fin cfg0.N) (q : Fin 64) :
    iblk0 V c 7 t (ix2 0 q) = V c main_v14 (ix2 0 q) := by
  obtain ⟨-, -, -, -, -, -, -, -, a0, a1, b0, b1, c0, c1, d0, d1⟩ := idx_resident t
  show V c main_v14 (((cfg0.win 7).blk t).view.emb (ix2 0 q)) = V c main_v14 (ix2 0 q)
  refine congrArg (V c main_v14) ?_
  funext a; apply Fin.ext
  match a with
  | ⟨0, _⟩ => show win0_7.index t (0 : Fin 2) * 1 + 1 * 0 = 0; omega
  | ⟨1, _⟩ => show win0_7.index t (1 : Fin 2) * 64 + 1 * q.val = q.val; omega

/-- A bias row's block is the whole row at every point. -/
theorem blk8 (c : Dev nD) (t : Fin cfg0.N) (q : Fin 64) :
    iblk0 V c 8 t (ix2 0 q) = V c main_v15 (ix2 0 q) := by
  obtain ⟨-, -, -, -, -, -, -, -, a0, a1, b0, b1, c0, c1, d0, d1⟩ := idx_resident t
  show V c main_v15 (((cfg0.win 8).blk t).view.emb (ix2 0 q)) = V c main_v15 (ix2 0 q)
  refine congrArg (V c main_v15) ?_
  funext a; apply Fin.ext
  match a with
  | ⟨0, _⟩ => show win0_8.index t (0 : Fin 2) * 1 + 1 * 0 = 0; omega
  | ⟨1, _⟩ => show win0_8.index t (1 : Fin 2) * 64 + 1 * q.val = q.val; omega

/-- A bias row's block is the whole row at every point. -/
theorem blk9 (c : Dev nD) (t : Fin cfg0.N) (q : Fin 64) :
    iblk0 V c 9 t (ix2 0 q) = V c main_v16 (ix2 0 q) := by
  obtain ⟨-, -, -, -, -, -, -, -, a0, a1, b0, b1, c0, c1, d0, d1⟩ := idx_resident t
  show V c main_v16 (((cfg0.win 9).blk t).view.emb (ix2 0 q)) = V c main_v16 (ix2 0 q)
  refine congrArg (V c main_v16) ?_
  funext a; apply Fin.ext
  match a with
  | ⟨0, _⟩ => show win0_9.index t (0 : Fin 2) * 1 + 1 * 0 = 0; omega
  | ⟨1, _⟩ => show win0_9.index t (1 : Fin 2) * 64 + 1 * q.val = q.val; omega

/-- A bias row's block is the whole row at every point. -/
theorem blk10 (c : Dev nD) (t : Fin cfg0.N) (q : Fin 64) :
    iblk0 V c 10 t (ix2 0 q) = V c main_v17 (ix2 0 q) := by
  obtain ⟨-, -, -, -, -, -, -, -, a0, a1, b0, b1, c0, c1, d0, d1⟩ := idx_resident t
  show V c main_v17 (((cfg0.win 10).blk t).view.emb (ix2 0 q)) = V c main_v17 (ix2 0 q)
  refine congrArg (V c main_v17) ?_
  funext a; apply Fin.ext
  match a with
  | ⟨0, _⟩ => show win0_10.index t (0 : Fin 2) * 1 + 1 * 0 = 0; omega
  | ⟨1, _⟩ => show win0_10.index t (1 : Fin 2) * 64 + 1 * q.val = q.val; omega

/-- The message array as ONE function of the arrays the region found. -/
def G (c : Dev nD) : S1000000x64.Idx → EReal :=
  Cert.Spec.msgArr (V c main_v19) (V c main_v20) (V c main_arg2)
    (fun k q => V c main_v5 (ix2 k q)) (fun k q => V c main_v7 (ix2 k q)) (fun k q => V c main_v9 (ix2 k q)) (fun k q => V c main_v11 (ix2 k q))
    (fun q => V c main_v14 (ix2 0 q)) (fun q => V c main_v15 (ix2 0 q)) (fun q => V c main_v16 (ix2 0 q)) (fun q => V c main_v17 (ix2 0 q))

/-- Point `t`'s output block embeds at rows `4000·t + p`. -/
theorem emb11 (t : Fin cfg0.N) (p : Fin 4000) (q : Fin 64) :
    ((cfg0.win 11).blk t).view.emb (ix2 p q) = ix2 (arow t p) q := by
  obtain ⟨-, -, -, -, -, -, e0, e1⟩ := idx_stream t
  funext a; apply Fin.ext
  match a with
  | ⟨0, _⟩ => show win0_11.index t (0 : Fin 2) * 4000 + 1 * p.val = t.val * 4000 + p.val; omega
  | ⟨1, _⟩ => show win0_11.index t (1 : Fin 2) * 64 + 1 * q.val = q.val; omega

/-- WHAT POINT `t` WRITES BACK is block `t` of `G`. -/
theorem flushed_eq (c : Dev nD) (t : Fin cfg0.N) :
    (dat0 V c).flushed 11 t = ((cfg0.win 11).blk t).view.read (Elt Ideal) (G V c) := by
  show (cfg0.win 11).cut (grid0.coords t) ((dat0 V c).after 11 t) = _
  rw [after0_11]
  funext j
  obtain ⟨p, q, rfl⟩ : ∃ (p : Fin 4000) (q : Fin 64), j = ix2 p q := ⟨j 0, j 1, eq_ix2 j⟩
  show out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 p q) = G V c (((cfg0.win 11).blk t).view.emb (ix2 p q))
  rw [emb11 t p q]
  refine (Cert.KernelIdeal.Payload.out0_11_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) p q).trans ?_
  unfold G Cert.Spec.msgArr
  simp only [blk0, blk1, blk2, blk3, blk4, blk5, blk6, blk7, blk8, blk9, blk10]

/-- An index of the array is in point `t`'s block iff each coordinate is in the block's range on its axis. -/
theorem mem_blk (t : Fin cfg0.N) (i : S1000000x64.Idx) :
    i ∈ ((cfg0.win 11).blk t).view.set ↔ ∀ a : Fin 2, win0_11.index t a * S4000x64.size a ≤ (i a).val ∧ (i a).val < win0_11.index t a * S4000x64.size a + S4000x64.size a := by
  show i ∈ ((View.whole main_v21).slice (win0_11.rect t)).set ↔ _
  rw [View.set_slice_whole, Rect.mem_set_unit]
  exact Iff.rfl

/-- The 250 blocks tile the array: row `r` lies in block `r / 4000`. -/
theorem cover (i : S1000000x64.Idx) :
    ∃ t : Fin cfg0.N, (cfg0.win 11).flush t = true ∧ i ∈ ((cfg0.win 11).blk t).view.set := by
  have hi0 : (i 0).val < 1000000 := (i 0).isLt
  have hi1 : (i 1).val < 64 := (i 1).isLt
  have hN : cfg0.N = 250 := N_0
  let t : Fin cfg0.N := ⟨(i 0).val / 4000, by omega⟩
  obtain ⟨-, -, -, -, -, -, e0, e1⟩ := idx_stream t
  have ht : t.val = (i 0).val / 4000 := rfl
  refine ⟨t, flush0_11 t, ?_⟩
  rw [mem_blk]
  intro a
  match a with
  | ⟨0, _⟩ => show win0_11.index t (0 : Fin 2) * 4000 ≤ (i 0).val ∧ (i 0).val < win0_11.index t (0 : Fin 2) * 4000 + 4000; omega
  | ⟨1, _⟩ => show win0_11.index t (1 : Fin 2) * 64 ≤ (i 1).val ∧ (i 1).val < win0_11.index t (1 : Fin 2) * 64 + 64; omega

/-- THE ARRAY after the region: `Spec.msgArr` of the arrays the region found. -/
theorem final (c : Dev nD) : (dat0 V c).arrAt 11 cfg0.N = G V c :=
  (dat0 V c).arrAt_eq_of_cover 11 (G V c) (fun t _ => flushed_eq V c t) (cover)

end Cert.KernelIdeal.Blocks0

end
-- ==== Proof.Blocks1.lean ====
/-
  The combine region's output array, whole. Its grid has 20 points; at point `t` the aggregate's and the node
  features' windows hold rows `5000·t … 5000·t + 4999` of their arrays, the skip weights and bias are resident whole,
  and the point writes back those same rows of the output. The written block at (p, q) is `Spec.outE` of the aggregate's
  entry and the node's row (the body's stored block read at an entry), so block `t` is the restriction of ONE
  whole-array function, `Spec.outArr`; the 20 blocks tile the array (row `r` lies in block `r / 5000`), hence the
  array ends holding `Spec.outArr` of the arrays the region found.
-/
import proofs.«417697_j40956808135195_2_alg».proof.Proof.Gen.KernelIdeal.Frame
import proofs.«417697_j40956808135195_2_alg».proof.Proof.Spec
import proofs.«417697_j40956808135195_2_alg».proof.Proof.Payload
import Idealize.ShloMosaic.Lib.ValueIdx
import Idealize.ShloMosaic.Lib.Pipeline.Value

set_option maxRecDepth 16384

noncomputable section

namespace Cert.KernelIdeal.Blocks1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The printed index maps over the 20 points: the three streamed windows sit at block row `t`, column block 0; the
    resident ones at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem tlt (t : Fin cfg1.N) : t.val < 20 := by
  have h : cfg1.N = 20 := N_1
  have := t.isLt
  omega

/-- Row `p` of point `t`'s block is row `5000·t + p` of the array. -/
def arow (t : Fin cfg1.N) (p : Fin 5000) : Fin 100000 := ⟨t.val * 5000 + p.val, by have := tlt t; have := p.isLt; omega⟩

/-- The aggregate's block at point `t` reads rows `5000·t + p` of its array. -/
theorem blk0 (c : Dev nD) (t : Fin cfg1.N) (p : Fin 5000) (q : Fin 64) :
    iblk1 V c 0 t (ix2 p q) = V c main_v24 (ix2 (arow t p) q) := by
  obtain ⟨e0, e1, -⟩ := idx_facts t
  show V c main_v24 (((cfg1.win 0).blk t).view.emb (ix2 p q)) = V c main_v24 (ix2 (arow t p) q)
  refine congrArg (V c main_v24) ?_
  funext a; apply Fin.ext
  match a with
  | ⟨0, _⟩ => show win1_0.index t (0 : Fin 2) * 5000 + 1 * p.val = t.val * 5000 + p.val; omega
  | ⟨1, _⟩ => show win1_0.index t (1 : Fin 2) * 64 + 1 * q.val = q.val; omega

/-- The node features' block at point `t` reads rows `5000·t + p` of its array. -/
theorem blk1 (c : Dev nD) (t : Fin cfg1.N) (p : Fin 5000) (k : Fin 64) :
    iblk1 V c 1 t (ix2 p k) = V c main_arg0 (ix2 (arow t p) k) := by
  obtain ⟨-, -, e0, e1, -⟩ := idx_facts t
  show V c main_arg0 (((cfg1.win 1).blk t).view.emb (ix2 p k)) = V c main_arg0 (ix2 (arow t p) k)
  refine congrArg (V c main_arg0) ?_
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

/-- The skip weights' block is the whole array at every point. -/
theorem blk2 (c : Dev nD) (t : Fin cfg1.N) (k q : Fin 64) :
    iblk1 V c 2 t (ix2 k q) = V c main_v13 (ix2 k q) := by
  obtain ⟨-, -, -, -, e0, e1, -⟩ := idx_facts t
  show V c main_v13 (((cfg1.win 2).blk t).view.emb (ix2 k q)) = V c main_v13 (ix2 k q)
  refine congrArg (V c main_v13) ?_
  funext a; apply Fin.ext
  match a with
  | ⟨0, _⟩ => show win1_2.index t (0 : Fin 2) * 64 + 1 * k.val = k.val; omega
  | ⟨1, _⟩ => show win1_2.index t (1 : Fin 2) * 64 + 1 * q.val = q.val; omega

/-- The skip bias's block is the whole row at every point. -/
theorem blk3 (c : Dev nD) (t : Fin cfg1.N) (q : Fin 64) :
    iblk1 V c 3 t (ix2 0 q) = V c main_v18 (ix2 0 q) := by
  obtain ⟨-, -, -, -, -, -, e0, e1, -⟩ := idx_facts t
  show V c main_v18 (((cfg1.win 3).blk t).view.emb (ix2 0 q)) = V c main_v18 (ix2 0 q)
  refine congrArg (V c main_v18) ?_
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- The output array as ONE function of the arrays the region found. -/
def G (c : Dev nD) : S100000x64.Idx → EReal :=
  Cert.Spec.outArr (V c main_v24) (V c main_arg0) (fun k q => V c main_v13 (ix2 k q)) (fun q => V c main_v18 (ix2 0 q))

/-- Point `t`'s output block embeds at rows `5000·t + p`. -/
theorem emb4 (t : Fin cfg1.N) (p : Fin 5000) (q : Fin 64) :
    ((cfg1.win 4).blk t).view.emb (ix2 p q) = ix2 (arow t p) q := by
  obtain ⟨-, -, -, -, -, -, -, -, e0, e1⟩ := idx_facts t
  funext a; apply Fin.ext
  match a with
  | ⟨0, _⟩ => show win1_4.index t (0 : Fin 2) * 5000 + 1 * p.val = t.val * 5000 + p.val; omega
  | ⟨1, _⟩ => show win1_4.index t (1 : Fin 2) * 64 + 1 * q.val = q.val; omega

/-- WHAT POINT `t` WRITES BACK is block `t` of `G`. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  funext j
  obtain ⟨p, q, rfl⟩ : ∃ (p : Fin 5000) (q : Fin 64), j = ix2 p q := ⟨j 0, j 1, eq_ix2 j⟩
  show out1_4 (iblk1 V c 0 t) (iblk1 V c 1 t) (iblk1 V c 2 t) (iblk1 V c 3 t) (ix2 p q) = G V c (((cfg1.win 4).blk t).view.emb (ix2 p q))
  rw [emb4 t p q]
  refine (Cert.KernelIdeal.Payload.out1_4_apply (iblk1 V c 0 t) (iblk1 V c 1 t) (iblk1 V c 2 t) (iblk1 V c 3 t) p q).trans ?_
  unfold G Cert.Spec.outArr
  simp only [blk0, blk1, blk2, blk3]

/-- An index of the array is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v25).slice (win1_4.rect t)).set ↔ _
  rw [View.set_slice_whole, Rect.mem_set_unit]
  exact Iff.rfl

/-- The 20 blocks tile the array: row `r` lies in block `r / 5000`. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  let t : Fin cfg1.N := ⟨(i 0).val / 5000, by omega⟩
  obtain ⟨-, -, -, -, -, -, -, -, e0, e1⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE ARRAY after the region: `Spec.outArr` of the arrays the region found. -/
theorem final (c : Dev nD) : (dat1 V c).arrAt 4 cfg1.N = G V c :=
  (dat1 V c).arrAt_eq_of_cover 4 (G V c) (fun t _ => flushed_eq V c t) (cover)

end Cert.KernelIdeal.Blocks1

end
-- ==== Proof.KValue.lean ====
/-
  The kernel program's result array, as the layer `Spec.final` of the launch memory's arguments.
  Read backwards from the last boundary: the result is the combine region's output array, `Spec.outArr` of the contents
  that region found; of those, the aggregate is the scatter-add (through the destination ids' column, into zeros) of the
  message region's output array, which is `Spec.msgArr` of the contents THAT region found: the two filled takes of the
  node features, the edge attributes, the transposed weights and the bias rows. Under the precondition every id is in
  `[0, 100000)`, so each filled take is the plain row gather; a transposed weight in the narrow format reads `W (q, k)` at
  `(k, q)`, a bias laid as a row reads `b q` at `(0, q)`.
-/
import proofs.«417697_j40956808135195_2_alg».proof.Proof.Gen.KernelIdeal.Frame
import proofs.«417697_j40956808135195_2_alg».proof.Proof.Spec
import proofs.«417697_j40956808135195_2_alg».proof.Proof.HostDefs
import proofs.«417697_j40956808135195_2_alg».proof.Proof.Host0
import proofs.«417697_j40956808135195_2_alg».proof.Proof.Keep1
import proofs.«417697_j40956808135195_2_alg».proof.Proof.Keep2
import proofs.«417697_j40956808135195_2_alg».proof.Proof.Take1
import proofs.«417697_j40956808135195_2_alg».proof.Proof.Take2
import proofs.«417697_j40956808135195_2_alg».proof.Proof.Host3
import proofs.«417697_j40956808135195_2_alg».proof.Proof.TakeK
import proofs.«417697_j40956808135195_2_alg».proof.Proof.Blocks0
import proofs.«417697_j40956808135195_2_alg».proof.Proof.Blocks1
import Idealize.ShloMosaic.Lib.ValueIdx
import Idealize.ShloMosaic.Lib.ValueLayout
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.KernelIdeal.HostDefs

variable (m : (ℓ : Loc nD τ sig) → Buf (Elt Ideal) ℓ) (ρ : Dev nD → PrngReg)

/-! ## What the message region finds (the contents after the three stretches of host operations) -/

theorem e_arg2 (c : Dev nD) : V3 m ρ c main_arg2 = (m ((c : Thread nD τ).loc main_arg2)) :=
  (Keep2.keep_arg2 (W2 m ρ c)).trans ((Keep1.keep_arg2 (W1 m ρ c)).trans (Host0.keep_arg2 (W0 m ρ c)))
theorem e_v5 (c : Dev nD) : V3 m ρ c main_v5 = truncf (F := Ideal) .bf16 (transpose S64x64 [1, 0] (m ((c : Thread nD τ).loc main_arg5)) transposes_S64x64_S64x64_1_0) bitsLt_bf16_f32 :=
  (Keep2.keep_v5 (W2 m ρ c)).trans ((Keep1.keep_v5 (W1 m ρ c)).trans (Host0.val_v5 (W0 m ρ c)))
theorem e_v7 (c : Dev nD) : V3 m ρ c main_v7 = truncf (F := Ideal) .bf16 (transpose S64x64 [1, 0] (m ((c : Thread nD τ).loc main_arg7)) transposes_S64x64_S64x64_1_0) bitsLt_bf16_f32 :=
  (Keep2.keep_v7 (W2 m ρ c)).trans ((Keep1.keep_v7 (W1 m ρ c)).trans (Host0.val_v7 (W0 m ρ c)))
theorem e_v9 (c : Dev nD) : V3 m ρ c main_v9 = truncf (F := Ideal) .bf16 (transpose S64x64 [1, 0] (m ((c : Thread nD τ).loc main_arg9)) transposes_S64x64_S64x64_1_0) bitsLt_bf16_f32 :=
  (Keep2.keep_v9 (W2 m ρ c)).trans ((Keep1.keep_v9 (W1 m ρ c)).trans (Host0.val_v9 (W0 m ρ c)))
theorem e_v11 (c : Dev nD) : V3 m ρ c main_v11 = truncf (F := Ideal) .bf16 (transpose S64x64 [1, 0] (m ((c : Thread nD τ).loc main_arg11)) transposes_S64x64_S64x64_1_0) bitsLt_bf16_f32 :=
  (Keep2.keep_v11 (W2 m ρ c)).trans ((Keep1.keep_v11 (W1 m ρ c)).trans (Host0.val_v11 (W0 m ρ c)))
theorem e_v13 (c : Dev nD) : V3 m ρ c main_v13 = truncf (F := Ideal) .bf16 (transpose S64x64 [1, 0] (m ((c : Thread nD τ).loc main_arg13)) transposes_S64x64_S64x64_1_0) bitsLt_bf16_f32 :=
  (Keep2.keep_v13 (W2 m ρ c)).trans ((Keep1.keep_v13 (W1 m ρ c)).trans (Host0.val_v13 (W0 m ρ c)))
theorem e_v14 (c : Dev nD) : V3 m ρ c main_v14 = shapeCast S1x64 (m ((c : Thread nD τ).loc main_arg6)) shapeCasts_S64_S1x64 :=
  (Keep2.keep_v14 (W2 m ρ c)).trans ((Keep1.keep_v14 (W1 m ρ c)).trans (Host0.val_v14 (W0 m ρ c)))
theorem e_v15 (c : Dev nD) : V3 m ρ c main_v15 = shapeCast S1x64 (m ((c : Thread nD τ).loc main_arg8)) shapeCasts_S64_S1x64 :=
  (Keep2.keep_v15 (W2 m ρ c)).trans ((Keep1.keep_v15 (W1 m ρ c)).trans (Host0.val_v15 (W0 m ρ c)))
theorem e_v16 (c : Dev nD) : V3 m ρ c main_v16 = shapeCast S1x64 (m ((c : Thread nD τ).loc main_arg10)) shapeCasts_S64_S1x64 :=
  (Keep2.keep_v16 (W2 m ρ c)).trans ((Keep1.keep_v16 (W1 m ρ c)).trans (Host0.val_v16 (W0 m ρ c)))
theorem e_v17 (c : Dev nD) : V3 m ρ c main_v17 = shapeCast S1x64 (m ((c : Thread nD τ).loc main_arg12)) shapeCasts_S64_S1x64 :=
  (Keep2.keep_v17 (W2 m ρ c)).trans ((Keep1.keep_v17 (W1 m ρ c)).trans (Host0.val_v17 (W0 m ρ c)))
theorem e_v18 (c : Dev nD) : V3 m ρ c main_v18 = shapeCast S1x64 (m ((c : Thread nD τ).loc main_arg14)) shapeCasts_S64_S1x64 :=
  (Keep2.keep_v18 (W2 m ρ c)).trans ((Keep1.keep_v18 (W1 m ρ c)).trans (Host0.val_v18 (W0 m ρ c)))
theorem e_v3 (c : Dev nD) : V3 m ρ c main_v3 = dstIds (m ((c : Thread nD τ).loc main_arg1)) :=
  (Keep2.keep_v3 (W2 m ρ c)).trans ((Keep1.keep_v3 (W1 m ρ c)).trans (Host0.val_v3 (W0 m ρ c)))
theorem e_arg0 (c : Dev nD) : V3 m ρ c main_arg0 = (m ((c : Thread nD τ).loc main_arg0)) :=
  (Keep2.keep_arg0 (W2 m ρ c)).trans ((Keep1.keep_arg0 (W1 m ρ c)).trans (Host0.keep_arg0 (W0 m ρ c)))

/-- The gathered destination rows: the filled take at the destination ids. -/
theorem e_v19 (c : Dev nD) : V3 m ρ c main_v19 = takeFill (F := Ideal) (m ((c : Thread nD τ).loc main_arg0)) (dstIds (m ((c : Thread nD τ).loc main_arg1))) :=
  (Keep2.keep_v19 (W2 m ρ c)).trans ((Take1.val_take (W1 m ρ c)).trans
    (congrArg₂ (takeFill (F := Ideal)) (Host0.keep_arg0 (W0 m ρ c)) (Host0.val_v3 (W0 m ρ c))))

/-- The gathered source rows: the filled take at the source ids. -/
theorem e_v20 (c : Dev nD) : V3 m ρ c main_v20 = takeFill (F := Ideal) (m ((c : Thread nD τ).loc main_arg0)) (srcIds (m ((c : Thread nD τ).loc main_arg1))) :=
  (Take2.val_take (W2 m ρ c)).trans
    (congrArg₂ (takeFill (F := Ideal)) ((Keep1.keep_arg0 (W1 m ρ c)).trans (Host0.keep_arg0 (W0 m ρ c)))
      ((Keep1.keep_v1 (W1 m ρ c)).trans (Host0.val_v1 (W0 m ρ c))))

/-! ## What the combine region finds -/

theorem f_arg0 (c : Dev nD) : V5 m ρ c main_arg0 = (m ((c : Thread nD τ).loc main_arg0)) :=
  (Host3.keep_arg0 (W4 m ρ c)).trans ((W4_of_ne m ρ c main_arg0 (by decide)).trans (e_arg0 m ρ c))
theorem f_v13 (c : Dev nD) : V5 m ρ c main_v13 = truncf (F := Ideal) .bf16 (transpose S64x64 [1, 0] (m ((c : Thread nD τ).loc main_arg13)) transposes_S64x64_S64x64_1_0) bitsLt_bf16_f32 :=
  (Host3.keep_v13 (W4 m ρ c)).trans ((W4_of_ne m ρ c main_v13 (by decide)).trans (e_v13 m ρ c))
theorem f_v18 (c : Dev nD) : V5 m ρ c main_v18 = shapeCast S1x64 (m ((c : Thread nD τ).loc main_arg14)) shapeCasts_S64_S1x64 :=
  (Host3.keep_v18 (W4 m ρ c)).trans ((W4_of_ne m ρ c main_v18 (by decide)).trans (e_v18 m ρ c))

/-- The aggregate: the message region's output array, added up per destination id. -/
theorem f_v24 (c : Dev nD) : V5 m ρ c main_v24
    = Host.scatterAdd (F := Ideal) scatter_S100000x64_S1000000x1_S1000000x64_1_0_0_1
        (broadcastInDim S100000x64 ![] bcast_S_S100000x64 (constant S_ .f32 0x00000000#32))
        (broadcastInDim S1000000x1 ![0] bcast_S1000000_S1000000x1_0 (dstIds (m ((c : Thread nD τ).loc main_arg1))))
        (Blocks0.G (V3 m ρ) c) := by
  refine (Host3.val_v24 (W4 m ρ c)).trans ?_
  rw [show W4 m ρ c (Proc.devRef .tc main_v3) = dstIds (m ((c : Thread nD τ).loc main_arg1)) from
        (W4_of_ne m ρ c main_v3 (by decide)).trans (e_v3 m ρ c),
      show W4 m ρ c (Proc.devRef .tc main_v21) = Blocks0.G (V3 m ρ) c from
        (W4_arr m ρ c 11).trans (Blocks0.final (V3 m ρ) c)]

/-! ## The two small reads -/

/-- A transposed weight in the narrow format, read at `(k, q)`, is `W (q, k)`. -/
theorem tw_read (W : FVec Ideal S64x64 .f32) (k q : Fin 64) :
    (truncf .bf16 (transpose S64x64 [1, 0] W transposes_S64x64_S64x64_1_0) bitsLt_bf16_f32 : FVec Ideal S64x64 .bf16) (ix2 k q)
      = Cert.Spec.tw W k q := by
  show transpose S64x64 [1, 0] W transposes_S64x64_S64x64_1_0 (ix2 k q) = W (ix2 q k)
  exact transpose_apply [1, 0] W transposes_S64x64_S64x64_1_0 (ix2 k q) (ix2 q k) (fun b => match b with
    | ⟨0, _⟩ => rfl
    | ⟨1, _⟩ => rfl)

/-- A bias laid as a row, read at `(0, q)`, is `b q`. -/
theorem bias_read (b : FVec Ideal S64 .f32) (q : Fin 64) :
    (shapeCast S1x64 b shapeCasts_S64_S1x64 : FVec Ideal S1x64 .f32) (ix2 0 q) = Cert.Spec.bv1 b q := by
  show shapeCast S1x64 b shapeCasts_S64_S1x64 (ix2 0 q) = b (ix1 q)
  refine (shapeCast_addUnit_apply (![64] : Fin 1 → Nat) b shapeCasts_S64_S1x64 (ix2 0 q)).trans ?_
  refine congrArg b ?_
  funext a
  match a with
  | ⟨0, _⟩ => rfl

/-! ## The weights and the biases as the layers use them -/

theorem w5 (c : Dev nD) : (fun (k q : Fin 64) => V3 m ρ c main_v5 (ix2 k q)) = Cert.Spec.tw (m ((c : Thread nD τ).loc main_arg5)) :=
  funext fun k => funext fun q => (congrFun (e_v5 m ρ c) (ix2 k q)).trans (tw_read _ k q)
theorem w7 (c : Dev nD) : (fun (k q : Fin 64) => V3 m ρ c main_v7 (ix2 k q)) = Cert.Spec.tw (m ((c : Thread nD τ).loc main_arg7)) :=
  funext fun k => funext fun q => (congrFun (e_v7 m ρ c) (ix2 k q)).trans (tw_read _ k q)
theorem w9 (c : Dev nD) : (fun (k q : Fin 64) => V3 m ρ c main_v9 (ix2 k q)) = Cert.Spec.tw (m ((c : Thread nD τ).loc main_arg9)) :=
  funext fun k => funext fun q => (congrFun (e_v9 m ρ c) (ix2 k q)).trans (tw_read _ k q)
theorem w11 (c : Dev nD) : (fun (k q : Fin 64) => V3 m ρ c main_v11 (ix2 k q)) = Cert.Spec.tw (m ((c : Thread nD τ).loc main_arg11)) :=
  funext fun k => funext fun q => (congrFun (e_v11 m ρ c) (ix2 k q)).trans (tw_read _ k q)
theorem w13 (c : Dev nD) : (fun (k q : Fin 64) => V5 m ρ c main_v13 (ix2 k q)) = Cert.Spec.tw (m ((c : Thread nD τ).loc main_arg13)) :=
  funext fun k => funext fun q => (congrFun (f_v13 m ρ c) (ix2 k q)).trans (tw_read _ k q)
theorem b14 (c : Dev nD) : (fun (q : Fin 64) => V3 m ρ c main_v14 (ix2 0 q)) = Cert.Spec.bv1 (m ((c : Thread nD τ).loc main_arg6)) :=
  funext fun q => (congrFun (e_v14 m ρ c) (ix2 0 q)).trans (bias_read _ q)
theorem b15 (c : Dev nD) : (fun (q : Fin 64) => V3 m ρ c main_v15 (ix2 0 q)) = Cert.Spec.bv1 (m ((c : Thread nD τ).loc main_arg8)) :=
  funext fun q => (congrFun (e_v15 m ρ c) (ix2 0 q)).trans (bias_read _ q)
theorem b16 (c : Dev nD) : (fun (q : Fin 64) => V3 m ρ c main_v16 (ix2 0 q)) = Cert.Spec.bv1 (m ((c : Thread nD τ).loc main_arg10)) :=
  funext fun q => (congrFun (e_v16 m ρ c) (ix2 0 q)).trans (bias_read _ q)
theorem b17 (c : Dev nD) : (fun (q : Fin 64) => V3 m ρ c main_v17 (ix2 0 q)) = Cert.Spec.bv1 (m ((c : Thread nD τ).loc main_arg12)) :=
  funext fun q => (congrFun (e_v17 m ρ c) (ix2 0 q)).trans (bias_read _ q)
theorem b18 (c : Dev nD) : (fun (q : Fin 64) => V5 m ρ c main_v18 (ix2 0 q)) = Cert.Spec.bv1 (m ((c : Thread nD τ).loc main_arg14)) :=
  funext fun q => (congrFun (f_v18 m ρ c) (ix2 0 q)).trans (bias_read _ q)

/-! ## The result -/

/-- With every id of the edge index in `[0, 100000)`, the message region's output array is `Spec.msgArr` of the gathered
    rows and the launch arguments. -/
theorem msg_eq (c : Dev nD)
    (hin : ∀ i : S2x1000000.Idx, IntOp.cmpi .sge ((m ((c : Thread nD τ).loc main_arg1)) i) 0#32 = 1#1 ∧ IntOp.cmpi .slt ((m ((c : Thread nD τ).loc main_arg1)) i) 100000#32 = 1#1) :
    Blocks0.G (V3 m ρ) c
      = Cert.Spec.msgArr
          (Host.gather gather_S100000x64_S1000000x1_S1000000x64_1_0_n_n_0_1_164 (m ((c : Thread nD τ).loc main_arg0)) (wrapCol (dstIds (m ((c : Thread nD τ).loc main_arg1)))))
          (Host.gather gather_S100000x64_S1000000x1_S1000000x64_1_0_n_n_0_1_164 (m ((c : Thread nD τ).loc main_arg0)) (wrapCol (srcIds (m ((c : Thread nD τ).loc main_arg1)))))
          (m ((c : Thread nD τ).loc main_arg2))
          (Cert.Spec.tw (m ((c : Thread nD τ).loc main_arg5))) (Cert.Spec.tw (m ((c : Thread nD τ).loc main_arg7))) (Cert.Spec.tw (m ((c : Thread nD τ).loc main_arg9))) (Cert.Spec.tw (m ((c : Thread nD τ).loc main_arg11)))
          (Cert.Spec.bv1 (m ((c : Thread nD τ).loc main_arg6))) (Cert.Spec.bv1 (m ((c : Thread nD τ).loc main_arg8))) (Cert.Spec.bv1 (m ((c : Thread nD τ).loc main_arg10))) (Cert.Spec.bv1 (m ((c : Thread nD τ).loc main_arg12))) := by
  unfold Blocks0.G
  rw [e_v19, e_v20, e_arg2,
    TakeK.takeFill_eq_gather (F := Ideal) (m ((c : Thread nD τ).loc main_arg0)) (dstIds (m ((c : Thread nD τ).loc main_arg1))) (fun e => hin _),
    TakeK.takeFill_eq_gather (F := Ideal) (m ((c : Thread nD τ).loc main_arg0)) (srcIds (m ((c : Thread nD τ).loc main_arg1))) (fun e => hin _),
    w5 m ρ c, w7 m ρ c, w9 m ρ c, w11 m ρ c, b14 m ρ c, b15 m ρ c, b16 m ρ c, b17 m ρ c]

/-- THE RESULT ARRAY of the kernel program: `Spec.final` of the launch memory's arguments. -/
theorem result_eq (c : Dev nD)
    (hin : ∀ i : S2x1000000.Idx, IntOp.cmpi .sge ((m ((c : Thread nD τ).loc main_arg1)) i) 0#32 = 1#1 ∧ IntOp.cmpi .slt ((m ((c : Thread nD τ).loc main_arg1)) i) 100000#32 = 1#1) :
    W6 m ρ c (Proc.devRef .tc main_v25)
      = Cert.Spec.final gather_S100000x64_S1000000x1_S1000000x64_1_0_n_n_0_1_164 scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (dstIds (m ((c : Thread nD τ).loc main_arg1))))
          (wrapCol (dstIds (m ((c : Thread nD τ).loc main_arg1)))) (wrapCol (srcIds (m ((c : Thread nD τ).loc main_arg1))))
          (m ((c : Thread nD τ).loc main_arg0)) (m ((c : Thread nD τ).loc main_arg2))
          (m ((c : Thread nD τ).loc main_arg5)) (m ((c : Thread nD τ).loc main_arg7)) (m ((c : Thread nD τ).loc main_arg9)) (m ((c : Thread nD τ).loc main_arg11)) (m ((c : Thread nD τ).loc main_arg13))
          (m ((c : Thread nD τ).loc main_arg6)) (m ((c : Thread nD τ).loc main_arg8)) (m ((c : Thread nD τ).loc main_arg10)) (m ((c : Thread nD τ).loc main_arg12)) (m ((c : Thread nD τ).loc main_arg14)) := by
  refine ((W6_arr m ρ c 4).trans (Blocks1.final (V5 m ρ) c)).trans ?_
  unfold Blocks1.G Cert.Spec.final
  rw [f_v24, f_arg0, msg_eq m ρ c hin, w13 m ρ c, b18 m ρ c]

end Cert.KernelIdeal.KValue

end
-- ==== Proof.LibGatherRows.lean ====
/-
  A ROW GATHER read at an entry. The gather that takes whole rows of an [N × C] table — one start index per result row,
  kept in an [n × 1] column; the table's row axis collapsed and start-indexed, its column axis the one offset axis; no
  batching axes — reads, at result entry (e, k), the table's entry (row e, k): the row depends on the result's row
  alone (through the column's word at row `e`, read signed and clamped into the table), and the column is kept.
-/
import Idealize.ShloMosaic.PureOps.ShapeOps
import Idealize.ShloMosaic.Lib.ValueIdx

namespace Idealize.ShloMosaic.GatherRows

open Idealize.ShloMosaic Idealize.ShloMosaic.ValueIdx

variable {N C n w : Nat}

/-- The table row that result row `e` reads: the start index at row `e` of the column, signed, clamped into the table. -/
def row (d : GatherDims ⟨2, ![N, C]⟩ ⟨2, ![n, 1]⟩ ⟨2, ![n, C]⟩) (idx : IVec ⟨2, ![n, 1]⟩ w) (hN : 0 < N) (e : Fin n) : Fin N :=
  ⟨min (idx (ix2 e (0 : Fin 1))).toInt.toNat (N - 1), by omega⟩

/-- An entry of a list that is a singleton is that singleton's element, at whatever position it is read. -/
private theorem getElem_of_eq_singleton {β : Type} {l : List β} {b : β} (h : l = [b]) (i : Nat) (hi : i < l.length) :
    l[i] = b := by
  subst h
  have : i = 0 := by simpa using hi
  subst this
  rfl

/-- Result entry (e, k) of the row gather is the table's entry (row e, k). -/
theorem gather_apply {α : Type} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (e : Fin n) (k : Fin C) :
    Host.gather d x idx (ix2 e k) = x (ix2 (row d idx hN e) k) := by
  unfold Host.gather
  congr 1
  funext a
  apply Fin.ext
  have hb : ∀ a, a ∉ d.operandBatchingDims := by rw [hob]; intro a; exact List.not_mem_nil
  -- the result's batch axes: the one axis that is not an offset axis
  have hbd : d.batchDims = [0] := by
    show (⟨2, ![n, C]⟩ : Shape).kept d.offsetDims = [0]
    rw [hoff]; rfl
  -- the table's kept axes: the one axis that is not collapsed
  have hsk : d.sKept = [1] := by
    show (⟨2, ![N, C]⟩ : Shape).kept (d.collapsedSliceDims ++ d.operandBatchingDims) = [1]
    rw [hcoll, hob]; rfl
  -- the start index of result row `e` sits at (e, 0) of the column, whichever component is asked for
  have hsi : ∀ c, d.siIdx (ix2 e k) c = ix2 e (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      show c.val = 0
      have hlen : d.startIndexMap.length = 1 := by rw [hsim]; rfl
      have hc : c.val < d.startIndexMap.length := c.isLt
      omega
  have ha : a = 0 ∨ a = 1 := by
    rcases a with ⟨v, hv⟩
    change v < 2 at hv
    rcases (by omega : v = 0 ∨ v = 1) with rfl | rfl
    · left; rfl
    · right; rfl
  rcases ha with rfl | rfl
  · -- the row axis: collapsed and start-indexed; no batching, no offset; the clamp leaves room for a slice of one row
    have hk : (0 : Fin 2) ∉ d.sKept := by rw [hsk]; simp
    have hm : (0 : Fin 2) ∈ d.startIndexMap := by rw [hsim]; exact List.mem_singleton.mpr rfl
    simp only [GatherDims.operandIdx, GatherDims.batchCoord_eq_zero _ _ _ (hb _), GatherDims.offCoord_eq_zero _ _ _ hk,
      Nat.add_zero, GatherDims.start, dif_pos hm, hsi]
    rw [hss]
    rfl
  · -- the column axis: not start-indexed (start 0), no batching; the one offset axis carries the result's column
    have hk : (1 : Fin 2) ∈ d.sKept := by rw [hsk]; simp
    have hm : (1 : Fin 2) ∉ d.startIndexMap := by rw [hsim]; simp
    simp only [GatherDims.operandIdx, GatherDims.batchCoord_eq_zero _ _ _ (hb _), GatherDims.offCoord, dif_pos hk,
      Nat.add_zero, GatherDims.start, dif_neg hm, Nat.zero_add]
    rw [getElem_of_eq_singleton hoff]
    rfl

end Idealize.ShloMosaic.GatherRows
-- ==== Proof.RefValue.lean ====
/-
  The reference's result is the layer `Spec.final` of its arguments: it projects every node once (key, query, value),
  gathers the projected rows per edge and adds the edge projection, where `Spec.final` gathers the raw rows and projects
  per edge — the same entries, because a row gather reads (row e, q) of a table whose entry (r, q) is a function of row
  `r` of the node features alone; and its last two additions `(agg + skip) + bias` regroup to `agg + (skip + bias)`.
-/
import proofs.«417697_j40956808135195_2_alg».proof.Proof.Gen.ReferenceIdeal.Read
import proofs.«417697_j40956808135195_2_alg».proof.Proof.Spec
import proofs.«417697_j40956808135195_2_alg».proof.Proof.LibGatherRows
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Idealize.ShloMosaic Idealize.ShloMosaic.ValueIdx Idealize.ShloMosaic.TcCoe Idealize.SL.Sem
open Cert.ReferenceIdeal Cert.ReferenceIdeal.Gen

/-- The destination ids (row 1 of the edge index) and the source ids (row 0), as the program slices them. -/
abbrev dstIds (ei : IVec S2x1000000 32) : IVec S1000000 32 :=
  shapeCast _ (extractStridedSlice S1x1000000 ![1, 0] ei slices_S2x1000000_S1x1000000_1_0) shapeCasts_S1x1000000_S1000000
abbrev srcIds (ei : IVec S2x1000000 32) : IVec S1000000 32 :=
  shapeCast _ (extractStridedSlice S1x1000000 ![0, 0] ei slices_S2x1000000_S1x1000000_0_0) shapeCasts_S1x1000000_S1000000
/-- The start-index column of a row gather: negatives wrapped by the table's length, laid as a column. -/
abbrev wrapCol (v : IVec S1000000 32) : IVec S1000000x1 32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100000#32))) v)

set_option quotPrecheck false
local notation "NodeA" => (⟨S100000x64, .f32⟩ : BufTy).Contents (Elt Ideal)
local notation "EdgeA" => (⟨S1000000x64, .f32⟩ : BufTy).Contents (Elt Ideal)
local notation "WA" => (⟨S64x64, .f32⟩ : BufTy).Contents (Elt Ideal)
local notation "BA" => (⟨S64, .f32⟩ : BufTy).Contents (Elt Ideal)
local notation "EiA" => (⟨S2x1000000, .i32⟩ : BufTy).Contents (Elt Ideal)
set_option quotPrecheck true

/-- The node table is not empty. -/
private theorem nodes_pos : 0 < 100000 := by decide

/-! ## A linear layer's entry -/

/-- One entry of a node table's product with the transposed weights. -/
private theorem dotN_apply (x : NodeA) (W : WA) (r : Fin 100000) (q : Fin 64) :
    Read.val_main_v5 (F := Ideal) x W (ix2 r q) = ∑ k : Fin 64, x (ix2 r k) * Cert.Spec.tw W k q := by
  rw [Read.val_main_v5_apply]
  refine Finset.sum_congr rfl fun k _ => ?_
  rw [Read.val_main_v4_apply]
  have e1 : Read.lidx_main_v5 (ix2 r q) k = ix2 r k := funext fun a => Fin.ext (by match a with | ⟨0, _⟩ => rfl | ⟨1, _⟩ => rfl)
  have e2 : Read.idx_main_v4 (Read.ridx_main_v5 (ix2 r q) k) = ix2 q k := funext fun a => Fin.ext (by match a with | ⟨0, _⟩ => rfl | ⟨1, _⟩ => rfl)
  rw [e1, e2]
  rfl

/-- One entry of a bias laid over the node table. -/
private theorem biasN_apply (b : BA) (r : Fin 100000) (q : Fin 64) :
    Read.val_main_v7 (F := Ideal) b (ix2 r q) = Cert.Spec.bv1 b q := by
  rw [Read.val_main_v7_apply, Read.val_main_v6_apply]
  have e1 : Read.idx_main_v6 (Read.idx_main_v7 (ix2 r q)) = ix1 q := funext fun a => Fin.ext (by match a with | ⟨0, _⟩ => rfl)
  rw [e1]
  rfl

/-- One entry of a projected node table is the linear layer's entry of that row. -/
private theorem projN_apply (x : NodeA) (W : WA) (b : BA) (r : Fin 100000) (q : Fin 64) :
    Read.val_main_v8 (F := Ideal) x W b (ix2 r q) = Cert.Spec.linE (fun k => x (ix2 r k)) (Cert.Spec.tw W) (Cert.Spec.bv1 b) q := by
  rw [Read.val_main_v8_apply, dotN_apply, biasN_apply]
  rfl

/-- One entry of the edge table's product with the transposed weights. -/
private theorem dotE_apply (x : EdgeA) (W : WA) (r : Fin 1000000) (q : Fin 64) :
    Read.val_main_v20 (F := Ideal) x W (ix2 r q) = ∑ k : Fin 64, x (ix2 r k) * Cert.Spec.tw W k q := by
  rw [Read.val_main_v20_apply]
  refine Finset.sum_congr rfl fun k _ => ?_
  rw [Read.val_main_v19_apply]
  have e1 : Read.lidx_main_v20 (ix2 r q) k = ix2 r k := funext fun a => Fin.ext (by match a with | ⟨0, _⟩ => rfl | ⟨1, _⟩ => rfl)
  have e2 : Read.idx_main_v19 (Read.ridx_main_v20 (ix2 r q) k) = ix2 q k := funext fun a => Fin.ext (by match a with | ⟨0, _⟩ => rfl | ⟨1, _⟩ => rfl)
  rw [e1, e2]
  rfl

/-- One entry of a bias laid over the edge table. -/
private theorem biasE_apply (b : BA) (r : Fin 1000000) (q : Fin 64) :
    Read.val_main_v22 (F := Ideal) b (ix2 r q) = Cert.Spec.bv1 b q := by
  rw [Read.val_main_v22_apply, Read.val_main_v21_apply]
  have e1 : Read.idx_main_v21 (Read.idx_main_v22 (ix2 r q)) = ix1 q := funext fun a => Fin.ext (by match a with | ⟨0, _⟩ => rfl)
  rw [e1]
  rfl

/-- One entry of the projected edge table is the linear layer's entry of that edge's attribute row. -/
private theorem projE_apply (x : EdgeA) (W : WA) (b : BA) (r : Fin 1000000) (q : Fin 64) :
    Read.val_main_v23 (F := Ideal) x W b (ix2 r q) = Cert.Spec.linE (fun k => x (ix2 r k)) (Cert.Spec.tw W) (Cert.Spec.bv1 b) q := by
  rw [Read.val_main_v23_apply, dotE_apply, biasE_apply]
  rfl

/-- The query, value and skip projections are the key projection's term at other weights. -/
private theorem v13_eq (x : NodeA) (W : WA) (b : BA) : Read.val_main_v13 (F := Ideal) x W b = Read.val_main_v8 x W b := rfl
private theorem v18_eq (x : NodeA) (W : WA) (b : BA) : Read.val_main_v18 (F := Ideal) x W b = Read.val_main_v8 x W b := rfl
private theorem v60_eq (x : NodeA) (W : WA) : Read.val_main_v60 (F := Ideal) x W = Read.val_main_v5 x W := rfl
private theorem v63_eq (b : BA) : Read.val_main_v63 (F := Ideal) b = Read.val_main_v7 b := rfl

/-! ## The gathered projections -/

/-- The three start-index columns, as the program forms them, are the wrapped destination and source columns. -/
private theorem v29_eq (x1 : EiA) : Read.val_main_v29 (F := Ideal) x1 = wrapCol (dstIds x1) := rfl
private theorem v37_eq (x1 : EiA) : Read.val_main_v37 (F := Ideal) x1 = wrapCol (srcIds x1) := rfl
private theorem v45_eq (x1 : EiA) : Read.val_main_v45 (F := Ideal) x1 = wrapCol (srcIds x1) := rfl

/-- A row gather of a projected node table reads, at (e, q), the linear layer's entry of the gathered row. -/
private theorem gatherProj_apply (x : NodeA) (W : WA) (b : BA) (col : IVec S1000000x1 32) (e : Fin 1000000) (q : Fin 64) :
    Host.gather gather_S100000x64_S1000000x1_S1000000x64_1_0_n_n_0_1_164 (Read.val_main_v8 (F := Ideal) x W b) col (ix2 e q)
      = Cert.Spec.linE (fun k => x (ix2 (GatherRows.row gather_S100000x64_S1000000x1_S1000000x64_1_0_n_n_0_1_164 col nodes_pos e) k))
          (Cert.Spec.tw W) (Cert.Spec.bv1 b) q := by
  rw [GatherRows.gather_apply gather_S100000x64_S1000000x1_S1000000x64_1_0_n_n_0_1_164 rfl rfl rfl rfl rfl rfl rfl nodes_pos, projN_apply]

/-- The same gather of the raw node features reads the gathered row itself. -/
private theorem gatherRaw_apply (x : NodeA) (col : IVec S1000000x1 32) (e : Fin 1000000) (k : Fin 64) :
    Host.gather gather_S100000x64_S1000000x1_S1000000x64_1_0_n_n_0_1_164 x col (ix2 e k)
      = x (ix2 (GatherRows.row gather_S100000x64_S1000000x1_S1000000x64_1_0_n_n_0_1_164 col nodes_pos e) k) :=
  GatherRows.gather_apply gather_S100000x64_S1000000x1_S1000000x64_1_0_n_n_0_1_164 rfl rfl rfl rfl rfl rfl rfl nodes_pos x col e k

/-! ## The constants -/

/-- The broadcast words of one and of zero, read at an entry. -/
private theorem one51 (i : S1000000x64.Idx) : Read.val_main_v51 (F := Ideal) i = 1 := by
  rw [Read.val_main_v51_apply]; exact Ideal.ofBits_one_f32
private theorem one53 (i : S1000000x64.Idx) : Read.val_main_v53 (F := Ideal) i = 1 := by
  rw [Read.val_main_v53_apply]; exact Ideal.ofBits_one_f32
private theorem zeroRelu (i : S100000x64.Idx) : Read.val_main_call0_v0 (F := Ideal) i = 0 := by
  rw [Read.val_main_call0_v0_apply]; exact Ideal.ofBits_zero_f32

/-! ## One message entry -/

/-- The reference's message array at (e, q) is the gated message of edge e. -/
private theorem msg_apply (x0 : NodeA) (x1 : EiA) (x2 : EdgeA) (x5 : WA) (x6 : BA) (x7 : WA) (x8 : BA) (x9 : WA) (x10 : BA)
    (x11 : WA) (x12 : BA) (e : Fin 1000000) (q : Fin 64) :
    Read.val_main_v55 (F := Ideal) x0 x1 x2 x5 x6 x7 x8 x9 x10 x11 x12 (ix2 e q)
      = Cert.Spec.msgArr
          (Host.gather gather_S100000x64_S1000000x1_S1000000x64_1_0_n_n_0_1_164 x0 (wrapCol (dstIds x1)))
          (Host.gather gather_S100000x64_S1000000x1_S1000000x64_1_0_n_n_0_1_164 x0 (wrapCol (srcIds x1)))
          x2 (Cert.Spec.tw x5) (Cert.Spec.tw x7) (Cert.Spec.tw x9) (Cert.Spec.tw x11)
          (Cert.Spec.bv1 x6) (Cert.Spec.bv1 x8) (Cert.Spec.bv1 x10) (Cert.Spec.bv1 x12) (ix2 e q) := by
  have hK : Read.val_main_v30 (F := Ideal) x0 x1 x5 x6 (ix2 e q)
      = Cert.Spec.linE (fun k => x0 (ix2 (GatherRows.row gather_S100000x64_S1000000x1_S1000000x64_1_0_n_n_0_1_164 (wrapCol (dstIds x1)) nodes_pos e) k))
          (Cert.Spec.tw x5) (Cert.Spec.bv1 x6) q := by
    unfold Read.val_main_v30; rw [v29_eq, gatherProj_apply]
  have hQ : Read.val_main_v38 (F := Ideal) x0 x1 x7 x8 (ix2 e q)
      = Cert.Spec.linE (fun k => x0 (ix2 (GatherRows.row gather_S100000x64_S1000000x1_S1000000x64_1_0_n_n_0_1_164 (wrapCol (srcIds x1)) nodes_pos e) k))
          (Cert.Spec.tw x7) (Cert.Spec.bv1 x8) q := by
    unfold Read.val_main_v38; rw [v37_eq, v13_eq, gatherProj_apply]
  have hV : Read.val_main_v46 (F := Ideal) x0 x1 x9 x10 (ix2 e q)
      = Cert.Spec.linE (fun k => x0 (ix2 (GatherRows.row gather_S100000x64_S1000000x1_S1000000x64_1_0_n_n_0_1_164 (wrapCol (srcIds x1)) nodes_pos e) k))
          (Cert.Spec.tw x9) (Cert.Spec.bv1 x10) q := by
    unfold Read.val_main_v46; rw [v45_eq, v18_eq, gatherProj_apply]
  rw [Read.val_main_v55_apply, Read.val_main_v54_apply, Read.val_main_v52_apply, Read.val_main_v50_apply,
    Read.val_main_v49_apply, Read.val_main_v48_apply, Read.val_main_v31_apply, Read.val_main_v39_apply,
    Read.val_main_v47_apply, one51, one53, hK, hQ, hV, projE_apply]
  have hd : ∀ k : Fin 64, Host.gather gather_S100000x64_S1000000x1_S1000000x64_1_0_n_n_0_1_164 x0 (wrapCol (dstIds x1)) (ix2 e k)
      = x0 (ix2 (GatherRows.row gather_S100000x64_S1000000x1_S1000000x64_1_0_n_n_0_1_164 (wrapCol (dstIds x1)) nodes_pos e) k) :=
    fun k => gatherRaw_apply x0 _ e k
  have hs : ∀ k : Fin 64, Host.gather gather_S100000x64_S1000000x1_S1000000x64_1_0_n_n_0_1_164 x0 (wrapCol (srcIds x1)) (ix2 e k)
      = x0 (ix2 (GatherRows.row gather_S100000x64_S1000000x1_S1000000x64_1_0_n_n_0_1_164 (wrapCol (srcIds x1)) nodes_pos e) k) :=
    fun k => gatherRaw_apply x0 _ e k
  show _ = Cert.Spec.msgE (fun k => Host.gather gather_S100000x64_S1000000x1_S1000000x64_1_0_n_n_0_1_164 x0 (wrapCol (dstIds x1)) (ix2 e k))
      (fun k => Host.gather gather_S100000x64_S1000000x1_S1000000x64_1_0_n_n_0_1_164 x0 (wrapCol (srcIds x1)) (ix2 e k))
      (fun k => x2 (ix2 e k)) _ _ _ _ _ _ _ _ q
  simp only [hd, hs]
  unfold Cert.Spec.msgE Ideal.logistic
  simp only [Ideal.mulf_def, Ideal.hostDivf_def, Ideal.addf_def, Ideal.hostUnary_exp_def, Ideal.hostNegf_def, Ideal.negf_def]

/-! ## The whole result -/

/-- The reference's message array is the specification's. -/
private theorem msg_eq (x0 : NodeA) (x1 : EiA) (x2 : EdgeA) (x5 : WA) (x6 : BA) (x7 : WA) (x8 : BA) (x9 : WA) (x10 : BA)
    (x11 : WA) (x12 : BA) :
    Read.val_main_v55 (F := Ideal) x0 x1 x2 x5 x6 x7 x8 x9 x10 x11 x12
      = Cert.Spec.msgArr
          (Host.gather gather_S100000x64_S1000000x1_S1000000x64_1_0_n_n_0_1_164 x0 (wrapCol (dstIds x1)))
          (Host.gather gather_S100000x64_S1000000x1_S1000000x64_1_0_n_n_0_1_164 x0 (wrapCol (srcIds x1)))
          x2 (Cert.Spec.tw x5) (Cert.Spec.tw x7) (Cert.Spec.tw x9) (Cert.Spec.tw x11)
          (Cert.Spec.bv1 x6) (Cert.Spec.bv1 x8) (Cert.Spec.bv1 x10) (Cert.Spec.bv1 x12) := by
  funext j
  obtain ⟨e, q, rfl⟩ : ∃ (e : Fin 1000000) (q : Fin 64), j = ix2 e q := ⟨j 0, j 1, eq_ix2 j⟩
  exact msg_apply x0 x1 x2 x5 x6 x7 x8 x9 x10 x11 x12 e q

/-- The scatter's zero array and destination column, as the program forms them. -/
private theorem v56_eq : Read.val_main_v56 (F := Ideal)
    = broadcastInDim S100000x64 ![] bcast_S_S100000x64 (constant (F := Ideal) S_ .f32 0x00000000#32) := rfl
private theorem v57_eq (x1 : EiA) : Read.val_main_v57 (F := Ideal) x1
    = broadcastInDim S1000000x1 ![0] bcast_S1000000_S1000000x1_0 (dstIds x1) := rfl

/-- The reference's last stage, over arbitrary arguments, is the layer. -/
private theorem val_eq_final (x0 : NodeA) (x1 : EiA) (x2 : EdgeA) (x5 : WA) (x6 : BA) (x7 : WA) (x8 : BA) (x9 : WA) (x10 : BA)
    (x11 : WA) (x12 : BA) (x13 : WA) (x14 : BA) :
    Read.val_main_v65 (F := Ideal) x0 x1 x2 x5 x6 x7 x8 x9 x10 x11 x12 x13 x14
      = Cert.Spec.final gather_S100000x64_S1000000x1_S1000000x64_1_0_n_n_0_1_164 scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (dstIds x1))
          (wrapCol (dstIds x1)) (wrapCol (srcIds x1)) x0 x2 x5 x7 x9 x11 x13 x6 x8 x10 x12 x14 := by
  funext i
  obtain ⟨p, q, rfl⟩ : ∃ (p : Fin 100000) (q : Fin 64), i = ix2 p q := ⟨i 0, i 1, eq_ix2 i⟩
  rw [Read.val_main_v65_apply, Read.val_main_v64_apply, Read.val_main_v61_apply, zeroRelu, v60_eq, v63_eq, dotN_apply,
    biasN_apply]
  unfold Read.val_main_v58
  rw [v56_eq, v57_eq, msg_eq]
  show _ = Cert.Spec.outE _ (fun k => x0 (ix2 p k)) (Cert.Spec.tw x13) (Cert.Spec.bv1 x14) q
  unfold Cert.Spec.outE Cert.Spec.linE
  simp only [Ideal.maximumf_def, Ideal.addf_def]
  rw [add_assoc]

/-- The reference run's result term, at the extended reals, is `Spec.final` of the launch memory's arguments. -/
theorem res_eq_final (m : (ℓ : Loc nD τ sig) → Buf (Elt Ideal) ℓ) (c : Dev nD) :
    Cert.ReferenceIdeal.Value.res_main_v65 (F := Ideal) m c
      = Cert.Spec.final gather_S100000x64_S1000000x1_S1000000x64_1_0_n_n_0_1_164 scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (dstIds (m ((c.tc : Thread nD τ).loc main_arg1))))
          (wrapCol (dstIds (m ((c.tc : Thread nD τ).loc main_arg1))))
          (wrapCol (srcIds (m ((c.tc : Thread nD τ).loc main_arg1))))
          (m ((c.tc : Thread nD τ).loc main_arg0)) (m ((c.tc : Thread nD τ).loc main_arg2))
          (m ((c.tc : Thread nD τ).loc main_arg5)) (m ((c.tc : Thread nD τ).loc main_arg7))
          (m ((c.tc : Thread nD τ).loc main_arg9)) (m ((c.tc : Thread nD τ).loc main_arg11))
          (m ((c.tc : Thread nD τ).loc main_arg13))
          (m ((c.tc : Thread nD τ).loc main_arg6)) (m ((c.tc : Thread nD τ).loc main_arg8))
          (m ((c.tc : Thread nD τ).loc main_arg10)) (m ((c.tc : Thread nD τ).loc main_arg12))
          (m ((c.tc : Thread nD τ).loc main_arg14)) := by
  rw [Read.val_main_v65_eq]
  exact val_eq_final _ _ _ _ _ _ _ _ _ _ _ _ _

end Cert.ReferenceIdeal.RefValue

end
-- ==== Proof.PreK.lean ====
/-
  What the precondition says of the edge index. The printed predicate is a conjunction whose last conjunct is
  `all ((edge_index ≥ 0) ∧ (edge_index < 100000))`: a reduce by `and`, over both axes, of the two signed comparisons'
  conjunction. The predicate being 1 makes that reduce 1, hence both comparisons 1 at every entry of the edge index.
-/
import proofs.«417697_j40956808135195_2_alg».proof.Pre_finite_inputs
import Idealize.ShloMosaic.Lib.ReduceAll
import Idealize.ShloMosaic.Lib.ValueIdx

noncomputable section

namespace Cert.PreDecode

open Idealize.ShloMosaic Cert.Pre_finite_inputs

variable {F : FTy → Type} [FloatOps F] [Cert.Pre_finite_inputs.Facts]

instance : Subsingleton S_.Idx := ⟨fun a b => funext fun d => d.elim0⟩

/-- Under the precondition every entry of the edge index is in `[0, 100000)`, signed. -/
theorem edge_index_inrange (a0 : FVec F S100000x64 .f32) (a1 : IVec S2x1000000 32) (a2 : FVec F S1000000x64 .f32)
    (a3 : FVec F S16x64 .f32) (a4 : IVec S100000 32) (a5 : FVec F S64x64 .f32) (a6 : FVec F S64 .f32)
    (a7 : FVec F S64x64 .f32) (a8 : FVec F S64 .f32) (a9 : FVec F S64x64 .f32) (a10 : FVec F S64 .f32)
    (a11 : FVec F S64x64 .f32) (a12 : FVec F S64 .f32) (a13 : FVec F S64x64 .f32) (a14 : FVec F S64 .f32)
    (h : Cert.Pre_finite_inputs.fn (F := F) a0 a1 a2 a3 a4 a5 a6 a7 a8 a9 a10 a11 a12 a13 a14 = fun _ => 1#1)
    (i : S2x1000000.Idx) :
    IntOp.cmpi .sge (a1 i) 0#32 = 1#1 ∧ IntOp.cmpi .slt (a1 i) 100000#32 = 1#1 := by
  have h0 := congrFun h ValueIdx.ix0
  dsimp only [Cert.Pre_finite_inputs.fn, fn_part1, fn_part2, fn_part3, fn_part4] at h0
  obtain ⟨-, h69⟩ := IntOp.andi_eq_one.1 h0
  have hi := Host.reduce_andi_all _ _ _ _ _ h69 i
  exact IntOp.andi_eq_one.1 hi

end Cert.PreDecode

end
-- ==== Proof.lean ====
/-
  A residual gated graph convolution, as two pipelined kernels around the host's row gathers and scatter-add, against its
  plain reference, over the extended reals.

  BOTH programs compute, for every edge `e` with source `s` and destination `d`, the message
  `σ((x_d·Wkᵀ + bk + ε_e) + (x_s·Wqᵀ + bq + ε_e)) · (x_s·Wvᵀ + bv + ε_e)`, `ε_e = a_e·Weᵀ + be`, add the messages up per
  destination, and finish every node `n` with `max (agg_n + (x_n·Wsᵀ + bs)) 0`. They differ in two ways that are not
  differences on the extended reals. The reference projects every node once and gathers the projected rows; the kernel
  program gathers the raw rows and projects per edge: a row gather commutes with a row-wise map. And the reference adds
  `(agg + skip) + bias` where the kernel adds `agg + (skip + bias)`: addition of extended reals is associative. A change
  of float format is the identity, a matrix product into zeros is the sum over the contracted axis.

  THE ONE REAL DIFFERENCE is outside the index range: the kernel program's gather is a FILLED take (an id outside
  `[-100000, 100000)` reads the fill word) where the reference's gather clamps. The precondition keeps every entry of the
  edge index in `[0, 100000)`, where the reference's own indexing is in range; there the range mask is 1 at every edge
  and the filled take is the gather. That is the only use of the precondition; no finiteness is used.

  The kernel program's run is the generated frame's launch read at the result array; each region's output array is one
  whole-array function of what the region found (its blocks tile the array); the reference's run is the generated one.
-/
import proofs.«417697_j40956808135195_2_alg».proof.Defs
import proofs.«417697_j40956808135195_2_alg».proof.Proof.Gen.Kernel
import proofs.«417697_j40956808135195_2_alg».proof.Proof.Gen.Kernel.Frame
import proofs.«417697_j40956808135195_2_alg».proof.Proof.Gen.KernelIdeal
import proofs.«417697_j40956808135195_2_alg».proof.Proof.Gen.KernelIdeal.Frame
import proofs.«417697_j40956808135195_2_alg».proof.Proof.Gen.ReferenceIdeal
import proofs.«417697_j40956808135195_2_alg».proof.Proof.Gen.Pre_finite_inputs
import proofs.«417697_j40956808135195_2_alg».proof.Proof.Gen.ReferenceIdeal.Run
import proofs.«417697_j40956808135195_2_alg».proof.Proof.Gen.ReferenceIdeal.Read
import proofs.«417697_j40956808135195_2_alg».proof.Proof.KernelRun
import proofs.«417697_j40956808135195_2_alg».proof.Proof.KValue
import proofs.«417697_j40956808135195_2_alg».proof.Proof.RefValue
import proofs.«417697_j40956808135195_2_alg».proof.Proof.PreK
import Idealize.ShloMosaic.Adequacy
import Idealize.ShloMosaic.Init

noncomputable section

namespace Cert.Proof

open Idealize.ShloMosaic Idealize.ShloMosaic.TcCoe Idealize.SL.Sem

/-- The word-level kernel program runs and leaves its arguments alone: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its generated run, the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

/-- Both idealized programs end with the same node outputs, and return the edge attributes, the graph features and the
    edge index as they were. -/
theorem algebraic : Cert.algebraic_KernelIdeal_ReferenceIdeal := by
  intro m ρ m' ρ' hpre hagree
  have hin : ∀ c : Dev Cert.KernelIdeal.nD, ∀ i,
      IntOp.cmpi .sge (m ((c.tc : Thread Cert.KernelIdeal.nD Cert.KernelIdeal.τ).loc Cert.KernelIdeal.main_arg1) i) 0#32 = 1#1
      ∧ IntOp.cmpi .slt (m ((c.tc : Thread Cert.KernelIdeal.nD Cert.KernelIdeal.τ).loc Cert.KernelIdeal.main_arg1) i) 100000#32 = 1#1 :=
    fun c i => Cert.PreDecode.edge_index_inrange _ _ _ _ _ _ _ _ _ _ _ _ _ _ _ (hpre c) i
  refine ⟨fun c => Cert.KernelIdeal.Gen.W6 m ρ c (Proc.devRef .tc Cert.KernelIdeal.main_v25),
    fun c => m ((c.tc : Thread Cert.KernelIdeal.nD Cert.KernelIdeal.τ).loc Cert.KernelIdeal.main_arg2),
    fun c => m ((c.tc : Thread Cert.KernelIdeal.nD Cert.KernelIdeal.τ).loc Cert.KernelIdeal.main_arg3),
    fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.ValueRun.run_value m ρ)
    obtain ⟨hv, h0, h1, h2, h3, h4, h5, h6, h7, h8, h9, h10, h11, h12, h13, h14⟩ := h c
    exact ⟨hv, h2, h3, h1, h0, h1, h2, h3, h4, h5, h6, h7, h8, h9, h10, h11, h12, h13, h14⟩
  · refine (θ_run Cert.ReferenceIdeal.defs _ _).mono (fun r h c => ?_) (Cert.ReferenceIdeal.Value.run (F := Ideal) m' ρ')
    obtain ⟨hv, r2, r3, r1, h0, h1, h2, h3, h4, h5, h6, h7, h8, h9, h10, h11, h12, h13, h14⟩ := h c
    obtain ⟨a0, a1, a2, a3, a4, a5, a6, a7, a8, a9, a10, a11, a12, a13, a14⟩ := hagree c
    refine ⟨hv.trans ?_, r2.trans a2, r3.trans a3, r1.trans a1, h0, h1, h2, h3, h4, h5, h6, h7, h8, h9, h10, h11, h12, h13, h14⟩
    show Cert.ReferenceIdeal.Value.res_main_v65 m' c
      = Cert.KernelIdeal.Gen.W6 m ρ c (Proc.devRef .tc Cert.KernelIdeal.main_v25)
    rw [Cert.ReferenceIdeal.RefValue.res_eq_final m' c, Cert.KernelIdeal.KValue.result_eq m ρ c (hin c),
      a0, a1, a2, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
